-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2048x2048 : Shape := ⟨2, ![2048, 2048]⟩
abbrev S32000x1024 : Shape := ⟨2, ![32000, 1024]⟩
abbrev S32000x2048 : Shape := ⟨2, ![32000, 2048]⟩
abbrev S2048x3072 : Shape := ⟨2, ![2048, 3072]⟩
abbrev S32000x1 : Shape := ⟨2, ![32000, 1]⟩
abbrev S2048x1 : Shape := ⟨2, ![2048, 1]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S32000x2048 : S_.BroadcastsInDim S32000x2048 (![] : Fin 0 → Fin S32000x2048.rank)
  reducesTo_S32000x2048_S_d0_1 : S32000x2048.ReducesTo [0, 1] S_
  bcast_S_S2048x3072 : S_.BroadcastsInDim S2048x3072 (![] : Fin 0 → Fin S2048x3072.rank)
  reducesTo_S2048x3072_S_d0_1 : S2048x3072.ReducesTo [0, 1] S_
  bcast_S_S32000x1 : S_.BroadcastsInDim S32000x1 (![] : Fin 0 → Fin S32000x1.rank)
  reducesTo_S32000x1_S_d0_1 : S32000x1.ReducesTo [0, 1] S_
  bcast_S_S2048x1 : S_.BroadcastsInDim S2048x1 (![] : Fin 0 → Fin S2048x1.rank)
  reducesTo_S2048x1_S_d0_1 : S2048x1.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg0 : IVec S2048 32) (main_v67 : IVec S_ 1) : IVec S_ 1 :=
  let main_c_26 : IVec S_ 32 := constantI S_ 32 32000#32
  let main_v68 : IVec S2048 32 := broadcastInDim S2048 ![] bcast_S_S2048 main_c_26
  let main_v69 : IVec S2048 1 := cmpi .slt main_arg0 main_v68
  let main_c_27 : IVec S_ 1 := constantI S_ 1 1#1
  let main_v70 : IVec S_ 1 := (fun x v => Host.reduce IntOp.andi x v reducesTo_S2048_S_d0 h_S_) main_v69 main_c_27
  let main_v71 : IVec S_ 1 := andi main_v67 main_v70
  main_v71

def fn_part3 {F : FTy → Type} [FloatOps F] (main_arg0 : IVec S2048 32) (main_arg12 : FVec F S2048x1 .f32) (main_arg13 : FVec F S2048x1 .f32) (main_v48 : IVec S_ 1) (main_v49 : FVec F S2048x1 .f32) (main_v50 : FVec F S2048x1 .f32) : IVec S_ 1 :=
  let main_v51 : IVec S2048x1 1 := cmpf .olt main_v49 main_v50
  let main_c_19 : IVec S_ 1 := constantI S_ 1 1#1
  let main_v52 : IVec S_ 1 := (fun x v => Host.reduce IntOp.andi x v reducesTo_S2048x1_S_d0_1 h_S_) main_v51 main_c_19
  let main_v53 : IVec S_ 1 := andi main_v48 main_v52
  let main_v54 : FVec F S2048x1 .f32 := Host.absf main_arg12
  let main_cst_20 : FVec F S_ .f32 := constant S_ .f32 0x7F800000#32
  let main_v55 : FVec F S2048x1 .f32 := broadcastInDim S2048x1 ![] bcast_S_S2048x1 main_cst_20
  let main_v56 : IVec S2048x1 1 := cmpf .olt main_v54 main_v55
  let main_c_21 : IVec S_ 1 := constantI S_ 1 1#1
  let main_v57 : IVec S_ 1 := (fun x v => Host.reduce IntOp.andi x v reducesTo_S2048x1_S_d0_1 h_S_) main_v56 main_c_21
  let main_v58 : IVec S_ 1 := andi main_v53 main_v57
  let main_v59 : FVec F S2048x1 .f32 := Host.absf main_arg13
  let main_cst_22 : FVec F S_ .f32 := constant S_ .f32 0x7F800000#32
  let main_v60 : FVec F S2048x1 .f32 := broadcastInDim S2048x1 ![] bcast_S_S2048x1 main_cst_22
  let main_v61 : IVec S2048x1 1 := cmpf .olt main_v59 main_v60
  let main_c_23 : IVec S_ 1 := constantI S_ 1 1#1
  let main_v62 : IVec S_ 1 := (fun x v => Host.reduce IntOp.andi x v reducesTo_S2048x1_S_d0_1 h_S_) main_v61 main_c_23
  let main_v63 : IVec S_ 1 := andi main_v58 main_v62
  let main_c_24 : IVec S_ 32 := constantI S_ 32 0#32
  let main_v64 : IVec S2048 32 := broadcastInDim S2048 ![] bcast_S_S2048 main_c_24
  let main_v65 : IVec S2048 1 := cmpi .sge main_arg0 main_v64
  let main_c_25 : IVec S_ 1 := constantI S_ 1 1#1
  let main_v66 : IVec S_ 1 := (fun x v => Host.reduce IntOp.andi x v reducesTo_S2048_S_d0 h_S_) main_v65 main_c_25
  let main_v67 : IVec S_ 1 := andi main_v63 main_v66
  fn_part4 (F := F) main_arg0 main_v67

def fn_part2 {F : FTy → Type} [FloatOps F] (main_arg0 : IVec S2048 32) (main_arg8 : FVec F S2048x3072 .f32) (main_arg9 : FVec F S32000x1 .f32) (main_arg10 : FVec F S2048x1 .f32) (main_arg11 : FVec F S2048x1 .f32) (main_arg12 : FVec F S2048x1 .f32) (main_arg13 : FVec F S2048x1 .f32) (main_v33 : IVec S_ 1) : IVec S_ 1 :=
  let main_v34 : FVec F S2048x3072 .f32 := Host.absf main_arg8
  let main_cst_12 : FVec F S_ .f32 := constant S_ .f32 0x7F800000#32
  let main_v35 : FVec F S2048x3072 .f32 := broadcastInDim S2048x3072 ![] bcast_S_S2048x3072 main_cst_12
  let main_v36 : IVec S2048x3072 1 := cmpf .olt main_v34 main_v35
  let main_c_13 : IVec S_ 1 := constantI S_ 1 1#1
  let main_v37 : IVec S_ 1 := (fun x v => Host.reduce IntOp.andi x v reducesTo_S2048x3072_S_d0_1 h_S_) main_v36 main_c_13
  let main_v38 : IVec S_ 1 := andi main_v33 main_v37
  let main_v39 : FVec F S32000x1 .f32 := Host.absf main_arg9
  let main_cst_14 : FVec F S_ .f32 := constant S_ .f32 0x7F800000#32
  let main_v40 : FVec F S32000x1 .f32 := broadcastInDim S32000x1 ![] bcast_S_S32000x1 main_cst_14
  let main_v41 : IVec S32000x1 1 := cmpf .olt main_v39 main_v40
  let main_c_15 : IVec S_ 1 := constantI S_ 1 1#1
  let main_v42 : IVec S_ 1 := (fun x v => Host.reduce IntOp.andi x v reducesTo_S32000x1_S_d0_1 h_S_) main_v41 main_c_15
  let main_v43 : IVec S_ 1 := andi main_v38 main_v42
  let main_v44 : FVec F S2048x1 .f32 := Host.absf main_arg10
  let main_cst_16 : FVec F S_ .f32 := constant S_ .f32 0x7F800000#32
  let main_v45 : FVec F S2048x1 .f32 := broadcastInDim S2048x1 ![] bcast_S_S2048x1 main_cst_16
  let main_v46 : IVec S2048x1 1 := cmpf .olt main_v44 main_v45
  let main_c_17 : IVec S_ 1 := constantI S_ 1 1#1
  let main_v47 : IVec S_ 1 := (fun x v => Host.reduce IntOp.andi x v reducesTo_S2048x1_S_d0_1 h_S_) main_v46 main_c_17
  let main_v48 : IVec S_ 1 := andi main_v43 main_v47
  let main_v49 : FVec F S2048x1 .f32 := Host.absf main_arg11
  let main_cst_18 : FVec F S_ .f32 := constant S_ .f32 0x7F800000#32
  let main_v50 : FVec F S2048x1 .f32 := broadcastInDim S2048x1 ![] bcast_S_S2048x1 main_cst_18
  fn_part3 (F := F) main_arg0 main_arg12 main_arg13 main_v48 main_v49 main_v50

def fn_part1 {F : FTy → Type} [FloatOps F] (main_arg0 : IVec S2048 32) (main_arg5 : FVec F S2048x3072 .f32) (main_arg6 : FVec F S2048x3072 .f32) (main_arg7 : FVec F S2048x3072 .f32) (main_arg8 : FVec F S2048x3072 .f32) (main_arg9 : FVec F S32000x1 .f32) (main_arg10 : FVec F S2048x1 .f32) (main_arg11 : FVec F S2048x1 .f32) (main_arg12 : FVec F S2048x1 .f32) (main_arg13 : FVec F S2048x1 .f32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_v19 : FVec F S2048x3072 .f32 := Host.absf main_arg5
  let main_cst_6 : FVec F S_ .f32 := constant S_ .f32 0x7F800000#32
  let main_v20 : FVec F S2048x3072 .f32 := broadcastInDim S2048x3072 ![] bcast_S_S2048x3072 main_cst_6
  let main_v21 : IVec S2048x3072 1 := cmpf .olt main_v19 main_v20
  let main_c_7 : IVec S_ 1 := constantI S_ 1 1#1
  let main_v22 : IVec S_ 1 := (fun x v => Host.reduce IntOp.andi x v reducesTo_S2048x3072_S_d0_1 h_S_) main_v21 main_c_7
  let main_v23 : IVec S_ 1 := andi main_v18 main_v22
  let main_v24 : FVec F S2048x3072 .f32 := Host.absf main_arg6
  let main_cst_8 : FVec F S_ .f32 := constant S_ .f32 0x7F800000#32
  let main_v25 : FVec F S2048x3072 .f32 := broadcastInDim S2048x3072 ![] bcast_S_S2048x3072 main_cst_8
  let main_v26 : IVec S2048x3072 1 := cmpf .olt main_v24 main_v25
  let main_c_9 : IVec S_ 1 := constantI S_ 1 1#1
  let main_v27 : IVec S_ 1 := (fun x v => Host.reduce IntOp.andi x v reducesTo_S2048x3072_S_d0_1 h_S_) main_v26 main_c_9
  let main_v28 : IVec S_ 1 := andi main_v23 main_v27
  let main_v29 : FVec F S2048x3072 .f32 := Host.absf main_arg7
  let main_cst_10 : FVec F S_ .f32 := constant S_ .f32 0x7F800000#32
  let main_v30 : FVec F S2048x3072 .f32 := broadcastInDim S2048x3072 ![] bcast_S_S2048x3072 main_cst_10
  let main_v31 : IVec S2048x3072 1 := cmpf .olt main_v29 main_v30
  let main_c_11 : IVec S_ 1 := constantI S_ 1 1#1
  let main_v32 : IVec S_ 1 := (fun x v => Host.reduce IntOp.andi x v reducesTo_S2048x3072_S_d0_1 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S2048 32) (main_arg1 : FVec F S2048x2048 .f32) (main_arg2 : FVec F S2048x2048 .f32) (main_arg3 : FVec F S32000x1024 .f32) (main_arg4 : FVec F S32000x2048 .f32) (main_arg5 : FVec F S2048x3072 .f32) (main_arg6 : FVec F S2048x3072 .f32) (main_arg7 : FVec F S2048x3072 .f32) (main_arg8 : FVec F S2048x3072 .f32) (main_arg9 : FVec F S32000x1 .f32) (main_arg10 : FVec F S2048x1 .f32) (main_arg11 : FVec F S2048x1 .f32) (main_arg12 : FVec F S2048x1 .f32) (main_arg13 : FVec F S2048x1 .f32) : IVec S_ 1 :=
  let main_v0 : FVec F S2048x2048 .f32 := Host.absf main_arg1
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S32000x1024 .f32 := Host.absf main_arg3
  let main_cst_2 : FVec F S_ .f32 := constant S_ .f32 0x7F800000#32
  let main_v10 : FVec F S32000x1024 .f32 := broadcastInDim S32000x1024 ![] bcast_S_S32000x1024 main_cst_2
  let main_v11 : IVec S32000x1024 1 := cmpf .olt main_v9 main_v10
  let main_c_3 : IVec S_ 1 := constantI S_ 1 1#1
  let main_v12 : IVec S_ 1 := (fun x v => Host.reduce IntOp.andi x v reducesTo_S32000x1024_S_d0_1 h_S_) main_v11 main_c_3
  let main_v13 : IVec S_ 1 := andi main_v8 main_v12
  let main_v14 : FVec F S32000x2048 .f32 := Host.absf main_arg4
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S2048 : Shape := ⟨1, ![2048]⟩
abbrev S2048x2048 : Shape := ⟨2, ![2048, 2048]⟩
abbrev S32000x1024 : Shape := ⟨2, ![32000, 1024]⟩
abbrev S32000x2048 : Shape := ⟨2, ![32000, 2048]⟩
abbrev S2048x3072 : Shape := ⟨2, ![2048, 3072]⟩
abbrev S32000x1 : Shape := ⟨2, ![32000, 1]⟩
abbrev S2048x1 : Shape := ⟨2, ![2048, 1]⟩
abbrev S_ : Shape := ⟨0, ![]⟩
abbrev S1 : Shape := ⟨1, ![1]⟩
abbrev S1x1 : Shape := ⟨2, ![1, 1]⟩
abbrev S2048x1024 : Shape := ⟨2, ![2048, 1024]⟩
abbrev S256x3072 : Shape := ⟨2, ![256, 3072]⟩
abbrev S256x1 : Shape := ⟨2, ![256, 1]⟩
abbrev S256x2048 : Shape := ⟨2, ![256, 2048]⟩
abbrev S256x1024 : Shape := ⟨2, ![256, 1024]⟩
abbrev S1280x2048 : Shape := ⟨2, ![1280, 2048]⟩
abbrev S1280x1 : Shape := ⟨2, ![1280, 1]⟩

abbrev nBuf : Space → Nat
  | .hbm => 47
  | .vmem => 33
  | .smem => 0
  | _ => 0

abbrev bufTy : (tb : Table) → Fin (tcTables nBuf tb) → BufTy
  | .hbm, ⟨0, _⟩ => ⟨S2048, .i32⟩
  | .hbm, ⟨1, _⟩ => ⟨S2048x2048, .f32⟩
  | .hbm, ⟨2, _⟩ => ⟨S2048x2048, .f32⟩
  | .hbm, ⟨3, _⟩ => ⟨S32000x1024, .f32⟩
  | .hbm, ⟨4, _⟩ => ⟨S32000x2048, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S32000x1, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S1, .i32⟩
  | .hbm, ⟨23, _⟩ => ⟨S_, .i32⟩
  | .hbm, ⟨24, _⟩ => ⟨S2048x1, .i32⟩
  | .hbm, ⟨25, _⟩ => ⟨S2048x1, .i1⟩
  | .hbm, ⟨26, _⟩ => ⟨S1x1, .i32⟩
  | .hbm, ⟨27, _⟩ => ⟨S2048x1, .i32⟩
  | .hbm, ⟨28, _⟩ => ⟨S2048x1, .i1⟩
  | .hbm, ⟨29, _⟩ => ⟨S2048x1, .i1⟩
  | .hbm, ⟨30, _⟩ => ⟨S_, .i1⟩
  | .hbm, ⟨31, _⟩ => ⟨S2048, .i1⟩
  | .hbm, ⟨32, _⟩ => ⟨S2048x1024, .f32⟩
  | .hbm, ⟨33, _⟩ => ⟨S2048x1024, .i1⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .bf16⟩
  | .hbm, ⟨38, _⟩ => ⟨S2048x2048, .bf16⟩
  | .hbm, ⟨39, _⟩ => ⟨S2048x3072, .bf16⟩
  | .hbm, ⟨40, _⟩ => ⟨S2048x3072, .bf16⟩
  | .hbm, ⟨41, _⟩ => ⟨S2048x3072, .bf16⟩
  | .hbm, ⟨42, _⟩ => ⟨S2048x3072, .bf16⟩
  | .hbm, ⟨43, _⟩ => ⟨S2048x2048, .f32⟩
  | .hbm, ⟨44, _⟩ => ⟨S2048x2048, .f32⟩
  | .hbm, ⟨45, _⟩ => ⟨S2048x2048, .bf16⟩
  | .hbm, ⟨46, _⟩ => ⟨S32000x2048, .f32⟩
  | .local _ .vmem, ⟨0, _⟩ => ⟨S256x3072, .bf16⟩
  | .local _ .vmem, ⟨1, _⟩ => ⟨S256x3072, .bf16⟩
  | .local _ .vmem, ⟨2, _⟩ => ⟨S256x3072, .bf16⟩
  | .local _ .vmem, ⟨3, _⟩ => ⟨S256x3072, .bf16⟩
  | .local _ .vmem, ⟨4, _⟩ => ⟨S256x3072, .bf16⟩
  | .local _ .vmem, ⟨5, _⟩ => ⟨S256x3072, .bf16⟩
  | .local _ .vmem, ⟨6, _⟩ => ⟨S256x3072, .bf16⟩
  | .local _ .vmem, ⟨7, _⟩ => ⟨S256x3072, .bf16⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S2048x2048, .bf16⟩
  | .local _ .vmem, ⟨17, _⟩ => ⟨S2048x1024, .bf16⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .bf16⟩
  | .local _ .vmem, ⟨25, _⟩ => ⟨S256x2048, .bf16⟩
  | .local _ .vmem, ⟨26, _⟩ => ⟨S1280x2048, .f32⟩
  | .local _ .vmem, ⟨27, _⟩ => ⟨S1280x2048, .f32⟩
  | .local _ .vmem, ⟨28, _⟩ => ⟨S2048x2048, .bf16⟩
  | .local _ .vmem, ⟨29, _⟩ => ⟨S1280x1, .f32⟩
  | .local _ .vmem, ⟨30, _⟩ => ⟨S1280x1, .f32⟩
  | .local _ .vmem, ⟨31, _⟩ => ⟨S1280x2048, .f32⟩
  | .local _ .vmem, ⟨32, _⟩ => ⟨S1280x2048, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7_0 : Ref sig .tc := ⟨.hbm, 43, rfl⟩
abbrev main_v7_1 : Ref sig .tc := ⟨.hbm, 44, rfl⟩
abbrev main_v7_2 : Ref sig .tc := ⟨.hbm, 45, rfl⟩
abbrev main_v8 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc1_sem0_0 : DmaSem sig := 26
abbrev cc1_sem0_1 : DmaSem sig := 27
abbrev cc1_sem1_0 : DmaSem sig := 28
abbrev cc1_sem2_0 : DmaSem sig := 29
abbrev cc1_sem2_1 : DmaSem sig := 30
abbrev cc1_sem3_0 : DmaSem sig := 31
abbrev cc1_sem3_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1280x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1280x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1280x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x1024_0 : S2048.BroadcastsInDim S2048x1024 (![0] : Fin 1 → Fin S2048x1024.rank)
  bcast_S_S2048x1024 : S_.BroadcastsInDim S2048x1024 (![] : Fin 0 → Fin S2048x1024.rank)
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  slices_S256x3072_o0_0_S256x2048 : S256x3072.Slices ![0, 0] S256x2048
  slices_S256x3072_o0_2048_S256x1024 : S256x3072.Slices ![0, 2048] S256x1024
  inb_S256x1_S256x1_0_0 : ∀ a, (![0, 0] : Fin 2 → Nat) a + S256x1.size a ≤ S256x1.size a
  h_S256x1 : 0 < S256x1.numel
  broadcasts_S256x1_S256x2048 : S256x1.Broadcasts S256x2048
  inb_S256x2048_S256x2048_0_0 : ∀ a, (![0, 0] : Fin 2 → Nat) a + S256x2048.size a ≤ S256x2048.size a
  h_S256x2048 : 0 < S256x2048.numel
  packedbf16_S256x2048_S256x2048_0_0 : (Rect.unit (s := S256x2048) ![0, 0] S256x2048.size inb_S256x2048_S256x2048_0_0).PackedRows (EltTy.packing .bf16)
  inb_S1280x2048_S1280x2048_0_0 : ∀ a, (![0, 0] : Fin 2 → Nat) a + S1280x2048.size a ≤ S1280x2048.size a
  h_S1280x2048 : 0 < S1280x2048.numel
  inb_S1280x1_S1280x1_0_0 : ∀ a, (![0, 0] : Fin 2 → Nat) a + S1280x1.size a ≤ S1280x1.size a
  h_S1280x1 : 0 < S1280x1.numel
  broadcasts_S1280x1_S1280x2048 : S1280x1.Broadcasts S1280x2048
  gather_S32000x1024_S2048x1_S2048x1024_1_0_n_n_0_1_11024_wf : GatherDims.WF S32000x1024 S2048x1 S2048x1024 [1] [0] [] [0] [] 1 ![1, 1024]
  dot_S256x2048_S2048x2048_S256x2048_1_0_0_1_n_n_wf : DotDims.WF S256x2048 S2048x2048 S256x2048 [1] [0] [0] [1] [] []
  dot_S256x1024_S2048x1024_S256x2048_1_1_0_0_n_n_wf : DotDims.WF S256x1024 S2048x1024 S256x2048 [1] [1] [0] [0] [] []
  dot_S1280x2048_S2048x2048_S1280x2048_1_0_0_1_n_n_wf : DotDims.WF S1280x2048 S2048x2048 S1280x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S2048x3072.size a
  hwx0_0 : ∀ i : grid0.Coords, EltTy.bits .bf16 = 32 ∨ (Rect.block (s := S2048x3072) S256x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3072.size a ≤ S2048x3072.size a
  hwx0_1 : ∀ i : grid0.Coords, EltTy.bits .bf16 = 32 ∨ (Rect.block (s := S2048x3072) S256x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3072.size a ≤ S2048x3072.size a
  hwx0_2 : ∀ i : grid0.Coords, EltTy.bits .bf16 = 32 ∨ (Rect.block (s := S2048x3072) S256x3072.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3072.size a ≤ S2048x3072.size a
  hwx0_3 : ∀ i : grid0.Coords, EltTy.bits .bf16 = 32 ∨ (Rect.block (s := S2048x3072) S256x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S2048x1.size a
  hwx0_5 : ∀ i : grid0.Coords, EltTy.bits .f32 = 32 ∨ (Rect.block (s := S2048x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S2048x1.size a
  hwx0_6 : ∀ i : grid0.Coords, EltTy.bits .f32 = 32 ∨ (Rect.block (s := S2048x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S2048x1.size a
  hwx0_7 : ∀ i : grid0.Coords, EltTy.bits .f32 = 32 ∨ (Rect.block (s := S2048x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2048.size a ≤ S2048x2048.size a
  hwx0_8 : ∀ i : grid0.Coords, EltTy.bits .bf16 = 32 ∨ (Rect.block (s := S2048x2048) S2048x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x1024.size a ≤ S2048x1024.size a
  hwx0_9 : ∀ i : grid0.Coords, EltTy.bits .bf16 = 32 ∨ (Rect.block (s := S2048x1024) S2048x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .f32 = 32 ∨ (Rect.block (s := S2048x2048) S256x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S2048x2048.size a
  hwx0_11 : ∀ i : grid0.Coords, EltTy.bits .f32 = 32 ∨ (Rect.block (s := S2048x2048) S256x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S2048x2048.size a
  hwx0_12 : ∀ i : grid0.Coords, EltTy.bits .f32 = 32 ∨ (Rect.block (s := S2048x2048) S256x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x2048.size a ≤ S2048x2048.size a
  hwx0_13 : ∀ i : grid0.Coords, EltTy.bits .bf16 = 32 ∨ (Rect.block (s := S2048x2048) S256x2048.size (cc0_transform_13 i) (hinb0_13 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x2048.size a ≤ S32000x2048.size a
  hwx1_0 : ∀ i : grid1.Coords, EltTy.bits .f32 = 32 ∨ (Rect.block (s := S32000x2048) S1280x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x1.size a ≤ S32000x1.size a
  hwx1_2 : ∀ i : grid1.Coords, EltTy.bits .f32 = 32 ∨ (Rect.block (s := S32000x1) S1280x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x2048.size a ≤ S32000x2048.size a
  hwx1_3 : ∀ i : grid1.Coords, EltTy.bits .f32 = 32 ∨ (Rect.block (s := S32000x2048) S1280x2048.size (cc1_transform_3 i) (hinb1_3 i)).WholeWords (EltTy.packing .f32)

variable [Facts₀]

def gather_S32000x1024_S2048x1_S2048x1024_1_0_n_n_0_1_11024 : GatherDims S32000x1024 S2048x1 S2048x1024 where
  offsetDims := [1]
  collapsedSliceDims := [0]
  operandBatchingDims := []
  startIndicesBatchingDims := []
  startIndexMap := [0]
  indexVectorDim := 1
  sliceSizes := ![1, 1024]
  wf := gather_S32000x1024_S2048x1_S2048x1024_1_0_n_n_0_1_11024_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S1280x2048_S2048x2048_S1280x2048_1_0_0_1_n_n : DotDims S1280x2048 S2048x2048 S1280x2048 where
  lhsContracting := [1]
  rhsContracting := [0]
  lhsNonContracting := [0]
  rhsNonContracting := [1]
  lhsBatch := []
  rhsBatch := []
  wf := dot_S1280x2048_S2048x2048_S1280x2048_1_0_0_1_n_n_wf

abbrev win0_0 : Pipeline.Window sig grid0 :=
  Pipeline.Window.ofSpec (Memref.whole main_v3) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x3072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x3072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S2048x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S2048x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg2) S256x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_0) S256x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v7_1) S256x2048.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v7_2) S256x2048.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg4) S1280x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_2) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S1280x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1280x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048 : Shape := ⟨1, ![2048]⟩
abbrev S2048x2048 : Shape := ⟨2, ![2048, 2048]⟩
abbrev S32000x1024 : Shape := ⟨2, ![32000, 1024]⟩
abbrev S32000x2048 : Shape := ⟨2, ![32000, 2048]⟩
abbrev S2048x3072 : Shape := ⟨2, ![2048, 3072]⟩
abbrev S32000x1 : Shape := ⟨2, ![32000, 1]⟩
abbrev S2048x1 : Shape := ⟨2, ![2048, 1]⟩
abbrev S_ : Shape := ⟨0, ![]⟩
abbrev S2048x1024 : Shape := ⟨2, ![2048, 1024]⟩
abbrev S1024x2048 : Shape := ⟨2, ![1024, 2048]⟩
abbrev S3072x2048 : Shape := ⟨2, ![3072, 2048]⟩

abbrev nBuf : Space → Nat
  | .hbm => 70
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048x2048, .f32⟩
  | .hbm, ⟨2, _⟩ => ⟨S2048x2048, .f32⟩
  | .hbm, ⟨3, _⟩ => ⟨S32000x1024, .f32⟩
  | .hbm, ⟨4, _⟩ => ⟨S32000x2048, .f32⟩
  | .hbm, ⟨5, _⟩ => ⟨S2048x3072, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S32000x1, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S2048x1024, .f32⟩
  | .hbm, ⟨23, _⟩ => ⟨S1024x2048, .f32⟩
  | .hbm, ⟨24, _⟩ => ⟨S3072x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S32000x2048, .f32⟩
  | .hbm, ⟨68, _⟩ => ⟨S32000x2048, .f32⟩
  | .hbm, ⟨69, _⟩ => ⟨S32000x2048, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  transposes_S2048x1024_S1024x2048_1_0 : S2048x1024.Transposes [1, 0] S1024x2048
  concatenates_S2048x2048_S1024x2048_S3072x2048_d0 : Shape.Concatenates [S2048x2048, S1024x2048] S3072x2048 0
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S32000x1_S32000x2048_0_1 : S32000x1.BroadcastsInDim S32000x2048 (![0, 1] : Fin 2 → Fin S32000x2048.rank)
  gather_S32000x1024_S2048x1_S2048x1024_1_0_n_n_0_1_11024_wf : GatherDims.WF S32000x1024 S2048x1 S2048x1024 [1] [0] [] [0] [] 1 ![1, 1024]
  dot_S2048x3072_S3072x2048_S2048x2048_1_0_0_1_n_n_wf : DotDims.WF S2048x3072 S3072x2048 S2048x2048 [1] [0] [0] [1] [] []
  dot_S32000x2048_S2048x2048_S32000x2048_1_0_0_1_n_n_wf : DotDims.WF S32000x2048 S2048x2048 S32000x2048 [1] [0] [0] [1] [] []

variable [Facts₀]

def gather_S32000x1024_S2048x1_S2048x1024_1_0_n_n_0_1_11024 : GatherDims S32000x1024 S2048x1 S2048x1024 where
  offsetDims := [1]
  collapsedSliceDims := [0]
  operandBatchingDims := []
  startIndicesBatchingDims := []
  startIndexMap := [0]
  indexVectorDim := 1
  sliceSizes := ![1, 1024]
  wf := gather_S32000x1024_S2048x1_S2048x1024_1_0_n_n_0_1_11024_wf
def dot_S2048x3072_S3072x2048_S2048x2048_1_0_0_1_n_n : DotDims S2048x3072 S3072x2048 S2048x2048 where
  lhsContracting := [1]
  rhsContracting := [0]
  lhsNonContracting := [0]
  rhsNonContracting := [1]
  lhsBatch := []
  rhsBatch := []
  wf := dot_S2048x3072_S3072x2048_S2048x2048_1_0_0_1_n_n_wf
def dot_S32000x2048_S2048x2048_S32000x2048_1_0_0_1_n_n : DotDims S32000x2048 S2048x2048 S32000x2048 where
  lhsContracting := [1]
  rhsContracting := [0]
  lhsNonContracting := [0]
  rhsNonContracting := [1]
  lhsBatch := []
  rhsBatch := []
  wf := dot_S32000x2048_S2048x2048_S32000x2048_1_0_0_1_n_n_wf

class Facts : Prop extends Facts₀ where

variable [Facts]
-- ==== Proof.Spec.lean ====
/-
  One step of an LSTM cell and its output projection, as index-by-index functions over the extended reals.

  With the recurrent state H (hidden by batch), the looked-up embeddings X (batch by embedding), a gate's weights W
  (rows by hidden + embedding) and bias b (one per row), the gate's pre-activation at row r and batch column q is

      (sum over k of W[r, k] * H[k, q])  +  (sum over j of W[r, hidden + j] * X[q, j])  +  b[r].

  The new cell state is  sigma(f) * C_prev + sigma(i) * tanh(g),  the new hidden state  sigma(o) * tanh(cell),  and the
  projection  sum over k of W_A[r, k] * hidden[k, q] + b_A[r].

  The same pre-activation is the single sum over the joined axis of  W[r, k] * Z[k, q]  where Z stacks H above the
  transpose of X: a finite sum over an initial and a final segment of the index range splits into the two sums, by
  associativity and commutativity of addition alone, so it holds on all extended reals.

  A gate, the cell and the hidden state at row r only look at row r of the weights, biases and previous cell state,
  so a band of rows of the arrays gives the same values as the whole arrays at the band's rows.
-/
import Idealize.ShloMosaic.PureOps.Ideal
import Idealize.ShloMosaic.Lib.ValueIdx
import Mathlib.Algebra.BigOperators.Fin

noncomputable section

namespace Cert.Proof.Lstm

open Idealize.ShloMosaic Idealize.ShloMosaic.ValueIdx

/-- An a-by-b array of extended reals. -/
abbrev Arr (a b : Nat) : Type := (⟨2, ![a, b]⟩ : Shape).Idx → EReal

/-- Column k of the hidden part of a weight row. -/
def loCol (k : Fin 2048) : Fin 3072 := ⟨k.val, by omega⟩
/-- Column j of the embedding part of a weight row. -/
def hiCol (j : Fin 1024) : Fin 3072 := ⟨2048 + j.val, by omega⟩

/-- A gate's pre-activation at row r, batch column q. -/
def gate {n : Nat} (W : Arr n 3072) (b : Arr n 1) (H : Arr 2048 2048) (X : Arr 2048 1024) (r : Fin n) (q : Fin 2048) : EReal :=
  ((∑ k : Fin 2048, W (ix2 r (loCol k)) * H (ix2 k q)) + ∑ j : Fin 1024, W (ix2 r (hiCol j)) * X (ix2 q j)) + b (ix2 r 0)

/-- The new cell state at (r, q). -/
def cellAt {n : Nat} (Wf Wi Wc : Arr n 3072) (bf bi bc : Arr n 1) (H : Arr 2048 2048) (X : Arr 2048 1024)
    (Cp : Arr n 2048) (r : Fin n) (q : Fin 2048) : EReal :=
  Ideal.logistic (gate Wf bf H X r q) * Cp (ix2 r q) + Ideal.logistic (gate Wi bi H X r q) * Ideal.tanh (gate Wc bc H X r q)

/-- The new hidden state at (r, q). -/
def hidAt {n : Nat} (Wf Wi Wo Wc : Arr n 3072) (bf bi bo bc : Arr n 1) (H : Arr 2048 2048) (X : Arr 2048 1024)
    (Cp : Arr n 2048) (r : Fin n) (q : Fin 2048) : EReal :=
  Ideal.logistic (gate Wo bo H X r q) * Ideal.tanh (cellAt Wf Wi Wc bf bi bc H X Cp r q)

/-- The new cell state, as an array. -/
def cell {n : Nat} (Wf Wi Wc : Arr n 3072) (bf bi bc : Arr n 1) (H : Arr 2048 2048) (X : Arr 2048 1024)
    (Cp : Arr n 2048) : Arr n 2048 := fun i => cellAt Wf Wi Wc bf bi bc H X Cp (i 0) (i 1)

/-- The new hidden state, as an array. -/
def hid {n : Nat} (Wf Wi Wo Wc : Arr n 3072) (bf bi bo bc : Arr n 1) (H : Arr 2048 2048) (X : Arr 2048 1024)
    (Cp : Arr n 2048) : Arr n 2048 := fun i => hidAt Wf Wi Wo Wc bf bi bo bc H X Cp (i 0) (i 1)

/-- The output projection at (r, q). -/
def projAt {n : Nat} (WA : Arr n 2048) (bA : Arr n 1) (Hn : Arr 2048 2048) (r : Fin n) (q : Fin 2048) : EReal :=
  (∑ k : Fin 2048, WA (ix2 r k) * Hn (ix2 k q)) + bA (ix2 r 0)

/-- The output projection, as an array. -/
def proj {n : Nat} (WA : Arr n 2048) (bA : Arr n 1) (Hn : Arr 2048 2048) : Arr n 2048 :=
  fun i => projAt WA bA Hn (i 0) (i 1)

/-! ## A value at a row depends on that row only -/

theorem gate_row {n n' : Nat} (W : Arr n 3072) (b : Arr n 1) (W' : Arr n' 3072) (b' : Arr n' 1)
    (H : Arr 2048 2048) (X : Arr 2048 1024) (r : Fin n) (r' : Fin n') (q : Fin 2048)
    (hW : ∀ k : Fin 3072, W (ix2 r k) = W' (ix2 r' k)) (hb : b (ix2 r 0) = b' (ix2 r' 0)) :
    gate W b H X r q = gate W' b' H X r' q := by
  unfold gate
  rw [hb]
  congr 2
  · exact Finset.sum_congr rfl fun k _ => by rw [hW]
  · exact Finset.sum_congr rfl fun j _ => by rw [hW]

theorem cellAt_row {n n' : Nat} (Wf Wi Wc : Arr n 3072) (bf bi bc : Arr n 1) (Cp : Arr n 2048)
    (Wf' Wi' Wc' : Arr n' 3072) (bf' bi' bc' : Arr n' 1) (Cp' : Arr n' 2048)
    (H : Arr 2048 2048) (X : Arr 2048 1024) (r : Fin n) (r' : Fin n') (q : Fin 2048)
    (hWf : ∀ k : Fin 3072, Wf (ix2 r k) = Wf' (ix2 r' k)) (hWi : ∀ k : Fin 3072, Wi (ix2 r k) = Wi' (ix2 r' k))
    (hWc : ∀ k : Fin 3072, Wc (ix2 r k) = Wc' (ix2 r' k))
    (hbf : bf (ix2 r 0) = bf' (ix2 r' 0)) (hbi : bi (ix2 r 0) = bi' (ix2 r' 0)) (hbc : bc (ix2 r 0) = bc' (ix2 r' 0))
    (hC : Cp (ix2 r q) = Cp' (ix2 r' q)) :
    cellAt Wf Wi Wc bf bi bc H X Cp r q = cellAt Wf' Wi' Wc' bf' bi' bc' H X Cp' r' q := by
  unfold cellAt
  rw [gate_row Wf bf Wf' bf' H X r r' q hWf hbf, gate_row Wi bi Wi' bi' H X r r' q hWi hbi,
    gate_row Wc bc Wc' bc' H X r r' q hWc hbc, hC]

theorem hidAt_row {n n' : Nat} (Wf Wi Wo Wc : Arr n 3072) (bf bi bo bc : Arr n 1) (Cp : Arr n 2048)
    (Wf' Wi' Wo' Wc' : Arr n' 3072) (bf' bi' bo' bc' : Arr n' 1) (Cp' : Arr n' 2048)
    (H : Arr 2048 2048) (X : Arr 2048 1024) (r : Fin n) (r' : Fin n') (q : Fin 2048)
    (hWf : ∀ k : Fin 3072, Wf (ix2 r k) = Wf' (ix2 r' k)) (hWi : ∀ k : Fin 3072, Wi (ix2 r k) = Wi' (ix2 r' k))
    (hWo : ∀ k : Fin 3072, Wo (ix2 r k) = Wo' (ix2 r' k)) (hWc : ∀ k : Fin 3072, Wc (ix2 r k) = Wc' (ix2 r' k))
    (hbf : bf (ix2 r 0) = bf' (ix2 r' 0)) (hbi : bi (ix2 r 0) = bi' (ix2 r' 0))
    (hbo : bo (ix2 r 0) = bo' (ix2 r' 0)) (hbc : bc (ix2 r 0) = bc' (ix2 r' 0))
    (hC : Cp (ix2 r q) = Cp' (ix2 r' q)) :
    hidAt Wf Wi Wo Wc bf bi bo bc H X Cp r q = hidAt Wf' Wi' Wo' Wc' bf' bi' bo' bc' H X Cp' r' q := by
  unfold hidAt
  rw [gate_row Wo bo Wo' bo' H X r r' q hWo hbo,
    cellAt_row Wf Wi Wc bf bi bc Cp Wf' Wi' Wc' bf' bi' bc' Cp' H X r r' q hWf hWi hWc hbf hbi hbc hC]

theorem projAt_row {n n' : Nat} (WA : Arr n 2048) (bA : Arr n 1) (WA' : Arr n' 2048) (bA' : Arr n' 1)
    (Hn : Arr 2048 2048) (r : Fin n) (r' : Fin n') (q : Fin 2048)
    (hW : ∀ k : Fin 2048, WA (ix2 r k) = WA' (ix2 r' k)) (hb : bA (ix2 r 0) = bA' (ix2 r' 0)) :
    projAt WA bA Hn r q = projAt WA' bA' Hn r' q := by
  unfold projAt
  rw [hb]
  congr 1
  exact Finset.sum_congr rfl fun k _ => by rw [hW]

/-! ## The pre-activation as one sum over the joined axis -/

/-- A sum over an index range of length a + b is the sum over its first a indices plus the sum over its last b. -/
theorem sum_fin_split {M : Type*} [AddCommMonoid M] (a b N : Nat) (hN : N = a + b) (f : Fin N → M) :
    ∑ k : Fin N, f k = (∑ k : Fin a, f ⟨k.val, by omega⟩) + ∑ j : Fin b, f ⟨a + j.val, by omega⟩ := by
  subst hN
  rw [Fin.sum_univ_add]
  rfl

/-- The sum over the joined axis of W[r, k] * Z[k, q], with Z equal to H on its first 2048 rows and to the transpose of
    X on the last 1024, plus the bias, is the gate's pre-activation. -/
theorem joined_sum_eq_gate {n : Nat} (W : Arr n 3072) (b : Arr n 1) (H : Arr 2048 2048) (X : Arr 2048 1024)
    (Z : Arr 3072 2048) (r : Fin n) (q : Fin 2048)
    (hlo : ∀ k : Fin 2048, Z (ix2 (loCol k) q) = H (ix2 k q))
    (hhi : ∀ j : Fin 1024, Z (ix2 (hiCol j) q) = X (ix2 q j)) :
    (∑ k : Fin 3072, W (ix2 r k) * Z (ix2 k q)) + b (ix2 r 0) = gate W b H X r q := by
  unfold gate
  congr 1
  refine (sum_fin_split 2048 1024 3072 (by norm_num) fun k : Fin 3072 => W (ix2 r k) * Z (ix2 k q)).trans ?_
  congr 1
  · refine Finset.sum_congr rfl fun k _ => ?_
    show W (ix2 r (loCol k)) * Z (ix2 (loCol k) q) = _
    rw [hlo]
  · refine Finset.sum_congr rfl fun j _ => ?_
    show W (ix2 r (hiCol j)) * Z (ix2 (hiCol j) q) = _
    rw [hhi]

end Cert.Proof.Lstm

end
-- ==== Proof.RefValue.lean ====
/-
  The reference's three results, read index by index, are the cell state, the hidden state and the projection of
  the specification, with the looked-up embeddings kept as the one array the lookup leaves.
-/
import proofs.«409515_j82703890252422_3_alg».proof.Proof.Spec
import proofs.«409515_j82703890252422_3_alg».proof.Proof.Gen.ReferenceIdeal.Run
import proofs.«409515_j82703890252422_3_alg».proof.Proof.Gen.ReferenceIdeal.Read
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Cert.Proof.Lstm
open Idealize.ShloMosaic Idealize.ShloMosaic.TcCoe Idealize.ShloMosaic.ValueIdx Idealize.SL.Sem

variable (x0 : (⟨S2048, .i32⟩ : BufTy).Contents (Elt Ideal))
  (x1 x2 : (⟨S2048x2048, .f32⟩ : BufTy).Contents (Elt Ideal))
  (x3 : (⟨S32000x1024, .f32⟩ : BufTy).Contents (Elt Ideal))
  (x4 : (⟨S32000x2048, .f32⟩ : BufTy).Contents (Elt Ideal))
  (x5 x6 x7 x8 : (⟨S2048x3072, .f32⟩ : BufTy).Contents (Elt Ideal))
  (x9 : (⟨S32000x1, .f32⟩ : BufTy).Contents (Elt Ideal))
  (x10 x11 x12 x13 : (⟨S2048x1, .f32⟩ : BufTy).Contents (Elt Ideal))

/-- The joined array, at one of its first 2048 rows, is the recurrent state. -/
theorem joined_lo (k q : Fin 2048) :
    val_main_v8 (F := Ideal) x0 x1 x3 (ix2 (loCol k) q) = x1 (ix2 k q) := by
  unfold val_main_v8
  generalize val_main_v7 (F := Ideal) x0 x3 = y
  exact concatenate_pair_apply_left (0 : Fin S3072x2048.rank) x1 y
    concatenates_S2048x2048_S1024x2048_S3072x2048_d0 (ix2 (loCol k) q) rfl (ix2 k q)
    (fun b => match b with
      | ⟨0, _⟩ => rfl
      | ⟨1, _⟩ => rfl)

/-- The joined array, at one of its last 1024 rows, is the transposed embeddings. -/
theorem joined_hi (j : Fin 1024) (q : Fin 2048) :
    val_main_v8 (F := Ideal) x0 x1 x3 (ix2 (hiCol j) q) = val_main_v6 (F := Ideal) x0 x3 (ix2 q j) := by
  unfold val_main_v8
  rw [concatenate_pair_apply_right (0 : Fin S3072x2048.rank) x1 (val_main_v7 (F := Ideal) x0 x3)
    concatenates_S2048x2048_S1024x2048_S3072x2048_d0 (ix2 (hiCol j) q) rfl rfl (ix2 j q)
    (fun b => match b with
      | ⟨0, _⟩ => fun h => absurd rfl h
      | ⟨1, _⟩ => fun _ => rfl)
    (by show j.val + 2048 = 2048 + j.val; omega)]
  rw [val_main_v7_apply]
  refine congrArg _ (funext fun a => ?_)
  match a with
  | ⟨0, _⟩ => rfl
  | ⟨1, _⟩ => rfl

/-- The left operand's index in the joined contraction at (r, q), term k, is (r, k). -/
theorem lidx_eq (r q : Fin 2048) (k : Fin 3072) : lidx_main_v9 (ix2 r q) k = ix2 r k := by
  funext a
  match a with
  | ⟨0, _⟩ => rfl
  | ⟨1, _⟩ => rfl

/-- The right operand's index in the joined contraction at (r, q), term k, is (k, q). -/
theorem ridx_eq (r q : Fin 2048) (k : Fin 3072) : ridx_main_v9 (ix2 r q) k = ix2 k q := by
  funext a
  match a with
  | ⟨0, _⟩ => rfl
  | ⟨1, _⟩ => rfl

/-- A bias spread along the batch axis is read at (r, 0). -/
theorem bidx_eq (r q : Fin 2048) : idx_main_v10 (ix2 r q) = ix2 r 0 := by
  funext a
  match a with
  | ⟨0, _⟩ => rfl
  | ⟨1, _⟩ => rfl

/-- The contraction of a weight array with the joined array over the joined axis, plus the bias spread along the
    batch axis, is the gate's pre-activation. -/
theorem preact_eq (W : (⟨S2048x3072, .f32⟩ : BufTy).Contents (Elt Ideal))
    (b : (⟨S2048x1, .f32⟩ : BufTy).Contents (Elt Ideal)) (r q : Fin 2048) :
    (∑ k : Fin 3072, W (lidx_main_v9 (ix2 r q) k) * val_main_v8 (F := Ideal) x0 x1 x3 (ridx_main_v9 (ix2 r q) k))
        + b (idx_main_v10 (ix2 r q))
      = gate W b x1 (val_main_v6 (F := Ideal) x0 x3) r q := by
  rw [bidx_eq]
  simp only [lidx_eq, ridx_eq]
  exact joined_sum_eq_gate W b x1 (val_main_v6 (F := Ideal) x0 x3) (val_main_v8 (F := Ideal) x0 x1 x3) r q
    (fun k => joined_lo x0 x1 x3 k q) (fun j => joined_hi x0 x1 x3 j q)

/-- The forget gate's pre-activation. -/
theorem gate_f (r q : Fin 2048) :
    val_main_v11 (F := Ideal) x0 x1 x3 x6 x11 (ix2 r q) = gate x6 x11 x1 (val_main_v6 (F := Ideal) x0 x3) r q := by
  rw [val_main_v11_apply, val_main_v9_apply, val_main_v10_apply]
  exact preact_eq x0 x1 x3 x6 x11 r q

/-- The input gate's pre-activation. -/
theorem gate_i (r q : Fin 2048) :
    val_main_v20 (F := Ideal) x0 x1 x3 x8 x13 (ix2 r q) = gate x8 x13 x1 (val_main_v6 (F := Ideal) x0 x3) r q := by
  rw [val_main_v20_apply, val_main_v18_apply, val_main_v19_apply]
  exact preact_eq x0 x1 x3 x8 x13 r q

/-- The output gate's pre-activation. -/
theorem gate_o (r q : Fin 2048) :
    val_main_v29 (F := Ideal) x0 x1 x3 x7 x12 (ix2 r q) = gate x7 x12 x1 (val_main_v6 (F := Ideal) x0 x3) r q := by
  rw [val_main_v29_apply, val_main_v27_apply, val_main_v28_apply]
  exact preact_eq x0 x1 x3 x7 x12 r q

/-- The candidate's pre-activation. -/
theorem gate_c (r q : Fin 2048) :
    val_main_v38 (F := Ideal) x0 x1 x3 x5 x10 (ix2 r q) = gate x5 x10 x1 (val_main_v6 (F := Ideal) x0 x3) r q := by
  rw [val_main_v38_apply, val_main_v36_apply, val_main_v37_apply]
  exact preact_eq x0 x1 x3 x5 x10 r q

/-- One over one plus the exponential of the negation, with the constant one given by its bits, is the logistic function. -/
theorem sigmoid_eq (g : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf g)))
      = Ideal.logistic g := by
  rw [Ideal.ofBits_def, Ideal.ofBits_one_f32]
  rfl

/-- The forget gate. -/
theorem sig_f (r q : Fin 2048) :
    val_main_v17 (F := Ideal) x0 x1 x3 x6 x11 (ix2 r q)
      = Ideal.logistic (gate x6 x11 x1 (val_main_v6 (F := Ideal) x0 x3) r q) := by
  rw [val_main_v17_apply, val_main_v16_apply, val_main_cst_1_apply, val_main_v15_apply, val_main_v14_apply,
    val_main_cst_apply, val_main_v13_apply, val_main_v12_apply, gate_f]
  exact sigmoid_eq _

/-- The input gate. -/
theorem sig_i (r q : Fin 2048) :
    val_main_v26 (F := Ideal) x0 x1 x3 x8 x13 (ix2 r q)
      = Ideal.logistic (gate x8 x13 x1 (val_main_v6 (F := Ideal) x0 x3) r q) := by
  rw [val_main_v26_apply, val_main_v25_apply, val_main_cst_3_apply, val_main_v24_apply, val_main_v23_apply,
    val_main_cst_2_apply, val_main_v22_apply, val_main_v21_apply, gate_i]
  exact sigmoid_eq _

/-- The output gate. -/
theorem sig_o (r q : Fin 2048) :
    val_main_v35 (F := Ideal) x0 x1 x3 x7 x12 (ix2 r q)
      = Ideal.logistic (gate x7 x12 x1 (val_main_v6 (F := Ideal) x0 x3) r q) := by
  rw [val_main_v35_apply, val_main_v34_apply, val_main_cst_5_apply, val_main_v33_apply, val_main_v32_apply,
    val_main_cst_4_apply, val_main_v31_apply, val_main_v30_apply, gate_o]
  exact sigmoid_eq _

/-- The reference's new cell state is the specification's, over the embeddings its lookup leaves. -/
theorem ref_cell :
    val_main_v42 (F := Ideal) x0 x1 x2 x3 x5 x6 x8 x10 x11 x13
      = cell x6 x8 x5 x11 x13 x10 x1 (val_main_v6 (F := Ideal) x0 x3) x2 := by
  funext i
  obtain ⟨r, q, rfl⟩ : ∃ r q, i = ix2 r q := ⟨i 0, i 1, eq_ix2 i⟩
  rw [val_main_v42_apply, val_main_v40_apply, val_main_v41_apply, val_main_v39_apply, sig_f, sig_i, gate_c]
  rfl

/-- The reference's new hidden state is the specification's. -/
theorem ref_hid :
    val_main_v44 (F := Ideal) x0 x1 x2 x3 x5 x6 x7 x8 x10 x11 x12 x13
      = hid x6 x8 x7 x5 x11 x13 x12 x10 x1 (val_main_v6 (F := Ideal) x0 x3) x2 := by
  funext i
  obtain ⟨r, q, rfl⟩ : ∃ r q, i = ix2 r q := ⟨i 0, i 1, eq_ix2 i⟩
  rw [val_main_v44_apply, val_main_v43_apply, sig_o, ref_cell]
  rfl

/-- The left operand's index in the projection's contraction at (r, q), term k, is (r, k). -/
theorem lidx_proj_eq (r : Fin 32000) (q k : Fin 2048) : lidx_main_v45 (ix2 r q) k = ix2 r k := by
  funext a
  match a with
  | ⟨0, _⟩ => rfl
  | ⟨1, _⟩ => rfl

/-- The right operand's index in the projection's contraction at (r, q), term k, is (k, q). -/
theorem ridx_proj_eq (r : Fin 32000) (q k : Fin 2048) : ridx_main_v45 (ix2 r q) k = ix2 k q := by
  funext a
  match a with
  | ⟨0, _⟩ => rfl
  | ⟨1, _⟩ => rfl

/-- The projection's bias spread along the batch axis is read at (r, 0). -/
theorem bidx_proj_eq (r : Fin 32000) (q : Fin 2048) : idx_main_v46 (ix2 r q) = ix2 r 0 := by
  funext a
  match a with
  | ⟨0, _⟩ => rfl
  | ⟨1, _⟩ => rfl

/-- The reference's projection is the specification's, of its hidden state. -/
theorem ref_proj :
    val_main_v47 (F := Ideal) x0 x1 x2 x3 x4 x5 x6 x7 x8 x9 x10 x11 x12 x13
      = proj x4 x9 (hid x6 x8 x7 x5 x11 x13 x12 x10 x1 (val_main_v6 (F := Ideal) x0 x3) x2) := by
  funext i
  obtain ⟨r, q, rfl⟩ : ∃ r q, i = ix2 r q := ⟨i 0, i 1, eq_ix2 i⟩
  rw [val_main_v47_apply, val_main_v45_apply, val_main_v46_apply, ref_hid, bidx_proj_eq]
  simp only [lidx_proj_eq, ridx_proj_eq]
  rfl

end Cert.ReferenceIdeal.RefValue

end
-- ==== Proof.HostSide.lean ====
/-
  What the host operations in front of the first pallas_call leave in the arrays the two calls read, at the exact
  values: a change of float format is the identity, so each converted weight matrix and the converted hidden state are
  the arguments themselves; the looked-up embeddings are the gather at the wrapped indices, because with every index in
  [0, 32000) the range mask of the lookup is set everywhere and its fill value is never selected.
-/
import proofs.«409515_j82703890252422_3_alg».proof.Proof.Gen.KernelIdeal.Frame
import proofs.«409515_j82703890252422_3_alg».proof.Proof.Gen.Pre_finite_inputs
import proofs.«409515_j82703890252422_3_alg».proof.Defs
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.Pipeline.Value

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem

/-- The embeddings the lookup gathers: row b is row idx[b] of the table, a negative index first wrapped by the table's
    height (and then clamped into the table, as every gather's start index is). -/
def lookedUp (idx : (⟨S2048, .i32⟩ : BufTy).Contents (Elt Ideal)) (emb : (⟨S32000x1024, .f32⟩ : BufTy).Contents (Elt Ideal)) :
    (⟨S2048x1024, .f32⟩ : BufTy).Contents (Elt Ideal) :=
  Host.gather gather_S32000x1024_S2048x1_S2048x1024_1_0_n_n_0_1_11024 emb
    (broadcastInDim S2048x1 ![0] bcast_S2048_S2048x1_0
      (select (cmpi .slt idx (broadcastInDim S2048 ![] bcast_S_S2048 (constantI S_ 32 0#32)))
        (addi idx (broadcastInDim S2048 ![] bcast_S_S2048 (constantI S_ 32 32000#32))) idx))

/-- Every index names a row of the table. -/
def InRange (idx : (⟨S2048, .i32⟩ : BufTy).Contents (Elt Ideal)) : Prop :=
  ∀ b : Fin 2048, 0 ≤ (idx (ix1 b)).toInt ∧ (idx (ix1 b)).toInt < 32000

/-! ## The range mask of the lookup is set everywhere -/

/-- A left fold by `and` from 1 over 1s is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from rfl]
    exact foldl_andi_ones f l fun n hn => h n (List.mem_cons_of_mem _ hn)

/-- A reduction by `and` from 1 of an array of 1s is 1 at every index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun n _ => hx n

/-- A word whose signed value is in [0, 32000) compares at least 0 and at most 31999. -/
theorem cmp_in_range (x : BitVec 32) (h0 : 0 ≤ x.toInt) (h1 : x.toInt < 32000) :
    IntOp.andi (IntOp.cmpi .sge x 0#32) (IntOp.cmpi .sle x 31999#32) = 1#1 := by
  have e0 : (0#32 : BitVec 32).toInt = 0 := by decide
  have e1 : (31999#32 : BitVec 32).toInt = 31999 := by decide
  have a : IntOp.cmpi .sge x 0#32 = 1#1 := by
    simp only [IntOp.cmpi, BitVec.sle, e0, StableHlo.Predicate.ofBool_eq_one_iff, decide_eq_true_eq]; exact h0
  have b : IntOp.cmpi .sle x 31999#32 = 1#1 := by
    simp only [IntOp.cmpi, BitVec.sle, e1, StableHlo.Predicate.ofBool_eq_one_iff, decide_eq_true_eq]; omega
  rw [a, b]; rfl

/-- A word whose signed value is not negative is not wrapped. -/
theorem wrap_nonneg (x : BitVec 32) (h0 : 0 ≤ x.toInt) :
    Scalar.select (IntOp.cmpi .slt x 0#32) (IntOp.addi x 32000#32) x = x := by
  have e0 : (0#32 : BitVec 32).toInt = 0 := by decide
  have a : IntOp.cmpi .slt x 0#32 = 0#1 := by
    apply eq_zero_of_ne_one
    simp only [IntOp.cmpi, BitVec.slt, e0, StableHlo.Predicate.ofBool_eq_one_iff, decide_eq_true_eq]; omega
  rw [a, select_zero]

/-- The wrapped indices of in-range indices are the indices: each is in range. -/
theorem wrapped_inRange (idx : (⟨S2048, .i32⟩ : BufTy).Contents (Elt Ideal)) (hin : InRange idx) (j : S2048.Idx) :
    0 ≤ ((select (cmpi .slt idx (broadcastInDim S2048 ![] bcast_S_S2048 (constantI S_ 32 0#32)))
        (addi idx (broadcastInDim S2048 ![] bcast_S_S2048 (constantI S_ 32 32000#32))) idx) j).toInt
    ∧ ((select (cmpi .slt idx (broadcastInDim S2048 ![] bcast_S_S2048 (constantI S_ 32 0#32)))
        (addi idx (broadcastInDim S2048 ![] bcast_S_S2048 (constantI S_ 32 32000#32))) idx) j).toInt < 32000 := by
  rw [eq_ix1 j]
  obtain ⟨h0, h1⟩ := hin (j 0)
  show 0 ≤ (Scalar.select (IntOp.cmpi .slt (idx (ix1 (j 0))) 0#32) (IntOp.addi (idx (ix1 (j 0))) 32000#32) (idx (ix1 (j 0)))).toInt
    ∧ (Scalar.select (IntOp.cmpi .slt (idx (ix1 (j 0))) 0#32) (IntOp.addi (idx (ix1 (j 0))) 32000#32) (idx (ix1 (j 0)))).toInt < 32000
  rw [wrap_nonneg _ h0]
  exact ⟨h0, h1⟩

/-- With every start index in range the lookup's range mask is set everywhere, so the select against the fill value
    returns the gathered rows. -/
theorem select_mask_eq {α : Type} (v5 : S2048x1.Idx → BitVec 32) (g fill : S2048x1024.Idx → α)
    (h5 : ∀ k, 0 ≤ (v5 k).toInt ∧ (v5 k).toInt < 32000) :
    select (broadcastInDim S2048x1024 ![0] bcast_S2048_S2048x1024_0
        (Host.reduce IntOp.andi
          (andi (cmpi .sge v5 (broadcastInDim S2048x1 ![] bcast_S_S2048x1 (constantI S_ 32 0#32)))
            (cmpi .sle v5 (broadcastInDim S2048x1 ![0, 1] bcast_S1x1_S2048x1_0_1
              (broadcastInDim S1x1 ![1] bcast_S1_S1x1_1 (constantI S1 32 31999#32)))))
          (constantI S_ 1 1#1) reducesTo_S2048x1_S2048_d1 h_S_)) g fill = g := by
  funext i
  rw [select_apply]
  have hc : (broadcastInDim S2048x1024 ![0] bcast_S2048_S2048x1024_0
        (Host.reduce IntOp.andi
          (andi (cmpi .sge v5 (broadcastInDim S2048x1 ![] bcast_S_S2048x1 (constantI S_ 32 0#32)))
            (cmpi .sle v5 (broadcastInDim S2048x1 ![0, 1] bcast_S1x1_S2048x1_0_1
              (broadcastInDim S1x1 ![1] bcast_S1_S1x1_1 (constantI S1 32 31999#32)))))
          (constantI S_ 1 1#1) reducesTo_S2048x1_S2048_d1 h_S_)) i = 1#1 :=
    reduce_andi_ones _ _ _ _ rfl (fun k => cmp_in_range (v5 k) (h5 k).1 (h5 k).2) _
  rw [hc, select_one]

/-! ## The index range, read back from the precondition -/

/-- A word that compares at least 0 has a signed value that is not negative. -/
theorem nonneg_of_sge (x : BitVec 32) (h : IntOp.cmpi .sge x 0#32 = 1#1) : 0 ≤ x.toInt := by
  have e0 : (0#32 : BitVec 32).toInt = 0 := by decide
  simpa only [IntOp.cmpi, BitVec.sle, e0, StableHlo.Predicate.ofBool_eq_one_iff, decide_eq_true_eq] using h

/-- A word that compares below 32000 has a signed value below 32000. -/
theorem lt_of_slt (x : BitVec 32) (h : IntOp.cmpi .slt x 32000#32 = 1#1) : x.toInt < 32000 := by
  have e1 : (32000#32 : BitVec 32).toInt = 32000 := by decide
  simpa only [IntOp.cmpi, BitVec.slt, e1, StableHlo.Predicate.ofBool_eq_one_iff, decide_eq_true_eq] using h

variable (m : (ℓ : Loc nD τ sig) → Buf (Elt Ideal) ℓ) (ρ : Dev nD → PrngReg)

set_option maxHeartbeats 400000 in
/-- The precondition says every index is in range. -/
theorem inRange_of_pre [hP : Cert.Pre_finite_inputs.Facts] (hpre : Cert.Pre_KernelIdeal m) (c : Dev nD) :
    InRange (m ((c.tc : Thread nD τ).loc main_arg0)) := by
  haveI : Subsingleton Cert.Pre_finite_inputs.S_.Idx := ⟨fun a b => funext fun d => d.elim0⟩
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4] at h
  obtain ⟨hA, hlt⟩ := IntOp.andi_eq_one.1 h
  obtain ⟨_, hge⟩ := IntOp.andi_eq_one.1 hA
  intro b
  exact ⟨nonneg_of_sge _ (Host.reduce_andi_all _ _ _ _ _ hge (ix1 b)), lt_of_slt _ (Host.reduce_andi_all _ _ _ _ _ hlt (ix1 b))⟩

/-! ## The first call's arrays at its entry -/

theorem V2_main_v3 (c : Dev nD) : V2 m ρ c main_v3 = m ((c.tc : Thread nD τ).loc main_arg6) := by
  show StableHlo.after hostOps0_1 (StableHlo.after hostOps0 _) (Proc.devRef .tc main_v3) = _
  after_results
  rfl
theorem V2_main_v4 (c : Dev nD) : V2 m ρ c main_v4 = m ((c.tc : Thread nD τ).loc main_arg8) := by
  show StableHlo.after hostOps0_1 (StableHlo.after hostOps0 _) (Proc.devRef .tc main_v4) = _
  after_results
  rfl
theorem V2_main_v5 (c : Dev nD) : V2 m ρ c main_v5 = m ((c.tc : Thread nD τ).loc main_arg7) := by
  show StableHlo.after hostOps0_1 (StableHlo.after hostOps0 _) (Proc.devRef .tc main_v5) = _
  after_results
  rfl
theorem V2_main_v6 (c : Dev nD) : V2 m ρ c main_v6 = m ((c.tc : Thread nD τ).loc main_arg5) := by
  show StableHlo.after hostOps0_1 (StableHlo.after hostOps0 _) (Proc.devRef .tc main_v6) = _
  after_results
  rfl
theorem V2_main_v2 (c : Dev nD) : V2 m ρ c main_v2 = m ((c.tc : Thread nD τ).loc main_arg1) := by
  show StableHlo.after hostOps0_1 (StableHlo.after hostOps0 _) (Proc.devRef .tc main_v2) = _
  after_results
  rfl
theorem V2_main_arg11 (c : Dev nD) : V2 m ρ c main_arg11 = m ((c.tc : Thread nD τ).loc main_arg11) := by
  show StableHlo.after hostOps0_1 (StableHlo.after hostOps0 _) (Proc.devRef .tc main_arg11) = _
  after_results
theorem V2_main_arg13 (c : Dev nD) : V2 m ρ c main_arg13 = m ((c.tc : Thread nD τ).loc main_arg13) := by
  show StableHlo.after hostOps0_1 (StableHlo.after hostOps0 _) (Proc.devRef .tc main_arg13) = _
  after_results
theorem V2_main_arg12 (c : Dev nD) : V2 m ρ c main_arg12 = m ((c.tc : Thread nD τ).loc main_arg12) := by
  show StableHlo.after hostOps0_1 (StableHlo.after hostOps0 _) (Proc.devRef .tc main_arg12) = _
  after_results
theorem V2_main_arg10 (c : Dev nD) : V2 m ρ c main_arg10 = m ((c.tc : Thread nD τ).loc main_arg10) := by
  show StableHlo.after hostOps0_1 (StableHlo.after hostOps0 _) (Proc.devRef .tc main_arg10) = _
  after_results
theorem V2_main_arg2 (c : Dev nD) : V2 m ρ c main_arg2 = m ((c.tc : Thread nD τ).loc main_arg2) := by
  show StableHlo.after hostOps0_1 (StableHlo.after hostOps0 _) (Proc.devRef .tc main_arg2) = _
  after_results

set_option maxHeartbeats 1000000 in
/-- The looked-up embeddings, with every index in range. -/
theorem V2_main_v1 (c : Dev nD) (hin : InRange (m ((c.tc : Thread nD τ).loc main_arg0))) :
    V2 m ρ c main_v1 = lookedUp (m ((c.tc : Thread nD τ).loc main_arg0)) (m ((c.tc : Thread nD τ).loc main_arg3)) := by
  show StableHlo.after hostOps0_1 (StableHlo.after hostOps0 _) (Proc.devRef .tc main_v1) = _
  after_results_simp
  exact select_mask_eq _ _ _ fun k => wrapped_inRange _ hin _

/-! ## The second call's argument arrays at its entry -/

theorem V3_main_arg4 (c : Dev nD) : V3 m ρ c main_arg4 = m ((c.tc : Thread nD τ).loc main_arg4) := by
  show W3 m ρ c (Proc.devRef .tc main_arg4) = _
  rw [W3_of_ne m ρ c main_arg4 (by decide)]
  show StableHlo.after hostOps0_1 (StableHlo.after hostOps0 _) (Proc.devRef .tc main_arg4) = _
  after_results
theorem V3_main_arg9 (c : Dev nD) : V3 m ρ c main_arg9 = m ((c.tc : Thread nD τ).loc main_arg9) := by
  show W3 m ρ c (Proc.devRef .tc main_arg9) = _
  rw [W3_of_ne m ρ c main_arg9 (by decide)]
  show StableHlo.after hostOps0_1 (StableHlo.after hostOps0 _) (Proc.devRef .tc main_arg9) = _
  after_results

end Cert.KernelIdeal.HostSide

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.LibTransDot.lean ====
/-
  The matrix product with the right operand contracted on its last axis, read at an entry.

  For the dimension numbers "contract the left operand's axis 1 with the right operand's axis 1, no batch axis", the
  product of an M-by-K and an N-by-K matrix has at entry (p, q) the sum over k of left (p, k) times right (q, k): the
  left operand times the transpose of the right one.  At the exact values this holds of the host's product and of a
  kernel's product accumulated into a zero splat alike, on all extended reals, because only 0 + x = x is used.
-/
import Idealize.ShloMosaic.Lib.ValueIdx
import Idealize.ShloMosaic.Lib.KernelVsHost
import Idealize.ShloMosaic.PureOps.Ideal.Laws

noncomputable section

namespace Idealize.ShloMosaic.TransDot

open Idealize.ShloMosaic.ValueIdx

variable {M K N : Nat} {φ₁ φ₂ : FTy}

/-- The left operand's index at output entry j and contraction step k: row of j, column k. -/
theorem lhsIdx_trans (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl j _).trans hk

/-- The right operand's index at output entry j and contraction step k: row the column of j, column k. -/
theorem rhsIdx_trans (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl j _).trans hk

/-- The host's product at an entry is the sum over the contraction of left (row, k) times right (column, k). -/
theorem dotGeneral_trans_apply (prec : Option ContractPrecision) (l : FVec Ideal ⟨2, ![M, K]⟩ φ₁)
    (r : FVec Ideal ⟨2, ![N, K]⟩ φ₂) (j : (⟨2, ![M, N]⟩ : Shape).Idx) :
    Host.dotGeneral (DotDims.transposedRhs M K N) prec l r j = ∑ k : Fin K, l (ix2 (j 0) k) * r (ix2 (j 1) k) := by
  simp only [Host.dotGeneral]
  rw [Ideal.dotGeneral_apply, ← Equiv.sum_comp (contrEquiv1 (DotDims.transposedRhs M K N) K rfl rfl).symm]
  refine Finset.sum_congr rfl fun k _ => ?_
  rw [lhsIdx_trans, rhsIdx_trans]
  rfl

/-- A kernel's product accumulated into a zero splat, at an entry: the same sum. -/
theorem matmul_zero_trans_apply (prec : Option ContractPrecision) (l : FVec Ideal ⟨2, ![M, K]⟩ φ₁)
    (r : FVec Ideal ⟨2, ![N, K]⟩ φ₂) (j : (⟨2, ![M, N]⟩ : Shape).Idx) :
    matmul (DotDims.transposedRhs M K N) prec l r (constant ⟨2, ![M, N]⟩ .f32 0x00000000#32) j
      = ∑ k : Fin K, l (ix2 (j 0) k) * r (ix2 (j 1) k) := by
  rw [matmul_zero_eq_dotGeneral, dotGeneral_trans_apply]

end Idealize.ShloMosaic.TransDot

end
-- ==== Proof.Region0Body.lean ====
/-
  The first pallas_call's body at one grid point, read at an entry: from a band of 256 rows of the four weight
  matrices and biases and of the previous cell state, the whole previous hidden state h and the whole looked-up
  embeddings x, the body stores the band of the new cell state and of the new hidden state.  A weight band is cut
  into its first 2048 columns, multiplied with h, and its last 1024 columns, multiplied with the transpose of x (the
  product contracts the last axis of both); each product is accumulated into zeros, so at the exact values it is the
  plain sum over the contraction.  The entry (p, q) of what is stored is therefore the specification's cell and
  hidden value at row p of the band.
-/
import proofs.«409515_j82703890252422_3_alg».proof.Proof.Spec
import proofs.«409515_j82703890252422_3_alg».proof.Proof.LibPlainDot
import proofs.«409515_j82703890252422_3_alg».proof.Proof.LibTransDot
import proofs.«409515_j82703890252422_3_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Region0Body

open Cert.KernelIdeal Cert.KernelIdeal.Gen Cert.Proof.Lstm
open Idealize.ShloMosaic Idealize.ShloMosaic.TcCoe Idealize.ShloMosaic.ValueIdx
open Idealize.ShloMosaic.PlainDot Idealize.ShloMosaic.TransDot

/-- The band's first 2048 columns times the hidden state, at an entry. -/
theorem dot_hidden (w : Vec Ideal S256x3072 .bf16) (h : FVec Ideal S2048x2048 .bf16) (p : Fin 256) (q : Fin 2048) :
    matmul dot_S256x2048_S2048x2048_S256x2048_1_0_0_1_n_n none
      (extractStridedSlice S256x2048 ![0, 0] (shapeCast S256x3072 w shapeCasts_S256x3072_S256x3072 : FVec Ideal S256x3072 .bf16) slices_S256x3072_o0_0_S256x2048 : FVec Ideal S256x2048 .bf16)
      h (constant S256x2048 .f32 0x00000000#32) (ix2 p q)
    = ∑ k : Fin 2048, w (ix2 p (loCol k)) * h (ix2 k q) := by
  rw [shapeCast_self]
  refine (matmul_zero_plain_apply (M := 256) (K := 2048) (N := 2048) none _ h (ix2 p q)).trans ?_
  refine Finset.sum_congr rfl fun k _ => ?_
  congr 1
  exact extractStridedSlice_apply _ w _ (ix2 p k) (ix2 p (loCol k)) (fun a => match a with
    | ⟨0, _⟩ => (Nat.zero_add _).symm
    | ⟨1, _⟩ => (Nat.zero_add _).symm)

/-- The band's last 1024 columns times the transposed embeddings, at an entry. -/
theorem dot_embed (w : Vec Ideal S256x3072 .bf16) (x : FVec Ideal S2048x1024 .bf16) (p : Fin 256) (q : Fin 2048) :
    matmul dot_S256x1024_S2048x1024_S256x2048_1_1_0_0_n_n none
      (extractStridedSlice S256x1024 ![0, 2048] (shapeCast S256x3072 w shapeCasts_S256x3072_S256x3072 : FVec Ideal S256x3072 .bf16) slices_S256x3072_o0_2048_S256x1024 : FVec Ideal S256x1024 .bf16)
      x (constant S256x2048 .f32 0x00000000#32) (ix2 p q)
    = ∑ j : Fin 1024, w (ix2 p (hiCol j)) * x (ix2 q j) := by
  rw [shapeCast_self]
  refine (matmul_zero_trans_apply (M := 256) (K := 1024) (N := 2048) none _ x (ix2 p q)).trans ?_
  refine Finset.sum_congr rfl fun j _ => ?_
  congr 1
  exact extractStridedSlice_apply _ w _ (ix2 p j) (ix2 p (hiCol j)) (fun a => match a with
    | ⟨0, _⟩ => (Nat.zero_add _).symm
    | ⟨1, _⟩ => rfl)

/-- A gate's pre-activation as the body spells it, at an entry. -/
theorem gate_entry (w : Vec Ideal S256x3072 .bf16) (b : Vec Ideal S256x1 .f32) (h : FVec Ideal S2048x2048 .bf16)
    (x : FVec Ideal S2048x1024 .bf16) (p : Fin 256) (q : Fin 2048) :
    addf (addf
        (matmul dot_S256x2048_S2048x2048_S256x2048_1_0_0_1_n_n none
          (extractStridedSlice S256x2048 ![0, 0] (shapeCast S256x3072 w shapeCasts_S256x3072_S256x3072 : FVec Ideal S256x3072 .bf16) slices_S256x3072_o0_0_S256x2048 : FVec Ideal S256x2048 .bf16)
          h (constant S256x2048 .f32 0x00000000#32))
        (matmul dot_S256x1024_S2048x1024_S256x2048_1_1_0_0_n_n none
          (extractStridedSlice S256x1024 ![0, 2048] (shapeCast S256x3072 w shapeCasts_S256x3072_S256x3072 : FVec Ideal S256x3072 .bf16) slices_S256x3072_o0_2048_S256x1024 : FVec Ideal S256x1024 .bf16)
          x (constant S256x2048 .f32 0x00000000#32)))
      (broadcastTo S256x2048 b broadcasts_S256x1_S256x2048) (ix2 p q)
    = gate w b h x p q := by
  rw [addf_apply, addf_apply, dot_hidden, dot_embed]
  unfold gate
  congr 1
  exact broadcastTo_apply b _ (ix2 p q) (ix2 p 0) (fun a => match a with
    | ⟨0, _⟩ => rfl
    | ⟨1, _⟩ => rfl)

/-- The identity cast of the whole hidden state. -/
theorem pay4_eq (v0 : Vec Ideal S2048x2048 .bf16) : k0_pay4 v0 = v0 := shapeCast_self _ _
/-- The identity cast of the whole embeddings. -/
theorem pay5_eq (v2 : Vec Ideal S2048x1024 .bf16) : k0_pay5 v2 = v2 := shapeCast_self _ _

/-- The forget gate at an entry: the logistic function of its pre-activation. -/
theorem pay6_entry (v0 : Vec Ideal S2048x2048 .bf16) (v2 : Vec Ideal S2048x1024 .bf16) (w : Vec Ideal S256x3072 .bf16)
    (b : Vec Ideal S256x1 .f32) (p : Fin 256) (q : Fin 2048) :
    k0_pay6 v0 v2 w b (ix2 p q) = Ideal.logistic (gate w b v0 v2 p q) := by
  unfold k0_pay6
  rw [pay4_eq, pay5_eq]
  exact congrArg Ideal.logistic (gate_entry w b v0 v2 p q)

/-- The input gate at an entry. -/
theorem pay7_entry (v0 : Vec Ideal S2048x2048 .bf16) (v2 : Vec Ideal S2048x1024 .bf16) (w : Vec Ideal S256x3072 .bf16)
    (b : Vec Ideal S256x1 .f32) (p : Fin 256) (q : Fin 2048) :
    k0_pay7 v0 v2 w b (ix2 p q) = Ideal.logistic (gate w b v0 v2 p q) := by
  unfold k0_pay7
  rw [pay4_eq, pay5_eq]
  exact congrArg Ideal.logistic (gate_entry w b v0 v2 p q)

/-- The output gate at an entry. -/
theorem pay8_entry (v0 : Vec Ideal S2048x2048 .bf16) (v2 : Vec Ideal S2048x1024 .bf16) (w : Vec Ideal S256x3072 .bf16)
    (b : Vec Ideal S256x1 .f32) (p : Fin 256) (q : Fin 2048) :
    k0_pay8 v0 v2 w b (ix2 p q) = Ideal.logistic (gate w b v0 v2 p q) := by
  unfold k0_pay8
  rw [pay4_eq, pay5_eq]
  exact congrArg Ideal.logistic (gate_entry w b v0 v2 p q)

/-- The stored band of the new cell state, at an entry. -/
theorem pay1_entry (v0 : Vec Ideal S2048x2048 .bf16) (v2 : Vec Ideal S2048x1024 .bf16)
    (wf wi wc : Vec Ideal S256x3072 .bf16) (bf bi bc : Vec Ideal S256x1 .f32) (cp : Vec Ideal S256x2048 .f32)
    (p : Fin 256) (q : Fin 2048) :
    k0_pay1 (k0_pay4 v0) (k0_pay5 v2) (k0_pay6 v0 v2 wf bf) (k0_pay7 v0 v2 wi bi) wc bc cp (ix2 p q)
      = cellAt wf wi wc bf bi bc v0 v2 cp p q := by
  unfold k0_pay1 cellAt
  rw [pay4_eq, pay5_eq]
  rw [addf_apply, mulf_apply, mulf_apply, pay6_entry, pay7_entry]
  exact congrArg (fun z => Ideal.logistic (gate wf bf v0 v2 p q) * cp (ix2 p q) + Ideal.logistic (gate wi bi v0 v2 p q) * Ideal.tanh z)
    (gate_entry wc bc v0 v2 p q)

/-- The stored band of the new hidden state, at an entry. -/
theorem pay2_entry (v0 : Vec Ideal S2048x2048 .bf16) (v2 : Vec Ideal S2048x1024 .bf16)
    (wf wi wo wc : Vec Ideal S256x3072 .bf16) (bf bi bo bc : Vec Ideal S256x1 .f32) (cp : Vec Ideal S256x2048 .f32)
    (p : Fin 256) (q : Fin 2048) :
    k0_pay2 (k0_pay4 v0) (k0_pay5 v2) (k0_pay6 v0 v2 wf bf) (k0_pay7 v0 v2 wi bi) (k0_pay8 v0 v2 wo bo) wc bc cp (ix2 p q)
      = hidAt wf wi wo wc bf bi bo bc v0 v2 cp p q := by
  unfold k0_pay2 hidAt
  rw [mulf_apply, pay8_entry]
  exact congrArg (fun z => Ideal.logistic (gate wo bo v0 v2 p q) * Ideal.tanh z) (pay1_entry v0 v2 wf wi wc bf bi bc cp p q)

/-- The same band in the narrower format: at the exact values a change of format is the identity. -/
theorem pay3_entry (v0 : Vec Ideal S2048x2048 .bf16) (v2 : Vec Ideal S2048x1024 .bf16)
    (wf wi wo wc : Vec Ideal S256x3072 .bf16) (bf bi bo bc : Vec Ideal S256x1 .f32) (cp : Vec Ideal S256x2048 .f32)
    (p : Fin 256) (q : Fin 2048) :
    k0_pay3 (k0_pay4 v0) (k0_pay5 v2) (k0_pay6 v0 v2 wf bf) (k0_pay7 v0 v2 wi bi) (k0_pay8 v0 v2 wo bo) wc bc cp (ix2 p q)
      = hidAt wf wi wo wc bf bi bo bc v0 v2 cp p q := by
  unfold k0_pay3
  show k0_pay2 (k0_pay4 v0) (k0_pay5 v2) (k0_pay6 v0 v2 wf bf) (k0_pay7 v0 v2 wi bi) (k0_pay8 v0 v2 wo bo) wc bc cp (ix2 p q) = _
  exact pay2_entry v0 v2 wf wi wo wc bf bi bo bc cp p q

end Cert.KernelIdeal.Region0Body

end
-- ==== Proof.Region0.lean ====
/-
  The first pallas_call: each grid point computes a band of 256 rows of the four gates from the band's rows of the
  weights and biases, the whole previous hidden state and the whole looked-up embeddings, then the band of the new
  cell state and of the new hidden state (the latter twice: once per output format, which at the exact values is one
  array).  Grid point t reads rows 256 t … 256 t + 255 of every banded array and writes the same rows of each output;
  the eight bands cover the 2048 rows.  So the three arrays the call leaves are the specification's cell and hidden
  state of the arrays it finds.
-/
import proofs.«409515_j82703890252422_3_alg».proof.Proof.Spec
import proofs.«409515_j82703890252422_3_alg».proof.Proof.Region0Body
import proofs.«409515_j82703890252422_3_alg».proof.Proof.Gen.KernelIdeal.Frame
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Region0Body Cert.Proof.Lstm
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every grid point, decided over the eight points: a banded window is at block
    (t, 0), the two whole-array windows stay at block (0, 0). -/
theorem band_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-! ## The input blocks as rows of the arrays the call finds -/

theorem read_w0 (c : Dev nD) (t : Fin cfg0.N) (p : Fin 256) (k : Fin 3072) (r : Fin 2048) (hr : r.val = t.val * 256 + p.val) :
    iblk0 V c 0 t (ix2 p k) = V c main_v3 (ix2 r k) := by
  show V c main_v3 (((cfg0.win 0).blk t).view.emb (ix2 p k)) = V c main_v3 (ix2 r k)
  obtain ⟨e0, e1, e2, e3, e4, e5, e6, e7, -, -, e10, -, -, -⟩ := band_index t
  refine congrArg (V c main_v3) (funext fun a => Fin.ext ?_)
  match a with
  | ⟨0, _⟩ => show win0_0.index t (0 : Fin 2) * 256 + 1 * p.val = r.val; have := e0.1; omega
  | ⟨1, _⟩ => show win0_0.index t (1 : Fin 2) * 3072 + 1 * k.val = k.val; have := e0.2; omega

theorem read_w1 (c : Dev nD) (t : Fin cfg0.N) (p : Fin 256) (k : Fin 3072) (r : Fin 2048) (hr : r.val = t.val * 256 + p.val) :
    iblk0 V c 1 t (ix2 p k) = V c main_v4 (ix2 r k) := by
  show V c main_v4 (((cfg0.win 1).blk t).view.emb (ix2 p k)) = V c main_v4 (ix2 r k)
  obtain ⟨e0, e1, e2, e3, e4, e5, e6, e7, -, -, e10, -, -, -⟩ := band_index t
  refine congrArg (V c main_v4) (funext fun a => Fin.ext ?_)
  match a with
  | ⟨0, _⟩ => show win0_1.index t (0 : Fin 2) * 256 + 1 * p.val = r.val; have := e1.1; omega
  | ⟨1, _⟩ => show win0_1.index t (1 : Fin 2) * 3072 + 1 * k.val = k.val; have := e1.2; omega

theorem read_w2 (c : Dev nD) (t : Fin cfg0.N) (p : Fin 256) (k : Fin 3072) (r : Fin 2048) (hr : r.val = t.val * 256 + p.val) :
    iblk0 V c 2 t (ix2 p k) = V c main_v5 (ix2 r k) := by
  show V c main_v5 (((cfg0.win 2).blk t).view.emb (ix2 p k)) = V c main_v5 (ix2 r k)
  obtain ⟨e0, e1, e2, e3, e4, e5, e6, e7, -, -, e10, -, -, -⟩ := band_index t
  refine congrArg (V c main_v5) (funext fun a => Fin.ext ?_)
  match a with
  | ⟨0, _⟩ => show win0_2.index t (0 : Fin 2) * 256 + 1 * p.val = r.val; have := e2.1; omega
  | ⟨1, _⟩ => show win0_2.index t (1 : Fin 2) * 3072 + 1 * k.val = k.val; have := e2.2; omega

theorem read_w3 (c : Dev nD) (t : Fin cfg0.N) (p : Fin 256) (k : Fin 3072) (r : Fin 2048) (hr : r.val = t.val * 256 + p.val) :
    iblk0 V c 3 t (ix2 p k) = V c main_v6 (ix2 r k) := by
  show V c main_v6 (((cfg0.win 3).blk t).view.emb (ix2 p k)) = V c main_v6 (ix2 r k)
  obtain ⟨e0, e1, e2, e3, e4, e5, e6, e7, -, -, e10, -, -, -⟩ := band_index t
  refine congrArg (V c main_v6) (funext fun a => Fin.ext ?_)
  match a with
  | ⟨0, _⟩ => show win0_3.index t (0 : Fin 2) * 256 + 1 * p.val = r.val; have := e3.1; omega
  | ⟨1, _⟩ => show win0_3.index t (1 : Fin 2) * 3072 + 1 * k.val = k.val; have := e3.2; omega

theorem read_w4 (c : Dev nD) (t : Fin cfg0.N) (p : Fin 256) (k : Fin 1) (r : Fin 2048) (hr : r.val = t.val * 256 + p.val) :
    iblk0 V c 4 t (ix2 p k) = V c main_arg11 (ix2 r k) := by
  show V c main_arg11 (((cfg0.win 4).blk t).view.emb (ix2 p k)) = V c main_arg11 (ix2 r k)
  obtain ⟨e0, e1, e2, e3, e4, e5, e6, e7, -, -, e10, -, -, -⟩ := band_index t
  refine congrArg (V c main_arg11) (funext fun a => Fin.ext ?_)
  match a with
  | ⟨0, _⟩ => show win0_4.index t (0 : Fin 2) * 256 + 1 * p.val = r.val; have := e4.1; omega
  | ⟨1, _⟩ => show win0_4.index t (1 : Fin 2) * 1 + 1 * k.val = k.val; have := e4.2; omega

theorem read_w5 (c : Dev nD) (t : Fin cfg0.N) (p : Fin 256) (k : Fin 1) (r : Fin 2048) (hr : r.val = t.val * 256 + p.val) :
    iblk0 V c 5 t (ix2 p k) = V c main_arg13 (ix2 r k) := by
  show V c main_arg13 (((cfg0.win 5).blk t).view.emb (ix2 p k)) = V c main_arg13 (ix2 r k)
  obtain ⟨e0, e1, e2, e3, e4, e5, e6, e7, -, -, e10, -, -, -⟩ := band_index t
  refine congrArg (V c main_arg13) (funext fun a => Fin.ext ?_)
  match a with
  | ⟨0, _⟩ => show win0_5.index t (0 : Fin 2) * 256 + 1 * p.val = r.val; have := e5.1; omega
  | ⟨1, _⟩ => show win0_5.index t (1 : Fin 2) * 1 + 1 * k.val = k.val; have := e5.2; omega

theorem read_w6 (c : Dev nD) (t : Fin cfg0.N) (p : Fin 256) (k : Fin 1) (r : Fin 2048) (hr : r.val = t.val * 256 + p.val) :
    iblk0 V c 6 t (ix2 p k) = V c main_arg12 (ix2 r k) := by
  show V c main_arg12 (((cfg0.win 6).blk t).view.emb (ix2 p k)) = V c main_arg12 (ix2 r k)
  obtain ⟨e0, e1, e2, e3, e4, e5, e6, e7, -, -, e10, -, -, -⟩ := band_index t
  refine congrArg (V c main_arg12) (funext fun a => Fin.ext ?_)
  match a with
  | ⟨0, _⟩ => show win0_6.index t (0 : Fin 2) * 256 + 1 * p.val = r.val; have := e6.1; omega
  | ⟨1, _⟩ => show win0_6.index t (1 : Fin 2) * 1 + 1 * k.val = k.val; have := e6.2; omega

theorem read_w7 (c : Dev nD) (t : Fin cfg0.N) (p : Fin 256) (k : Fin 1) (r : Fin 2048) (hr : r.val = t.val * 256 + p.val) :
    iblk0 V c 7 t (ix2 p k) = V c main_arg10 (ix2 r k) := by
  show V c main_arg10 (((cfg0.win 7).blk t).view.emb (ix2 p k)) = V c main_arg10 (ix2 r k)
  obtain ⟨e0, e1, e2, e3, e4, e5, e6, e7, -, -, e10, -, -, -⟩ := band_index t
  refine congrArg (V c main_arg10) (funext fun a => Fin.ext ?_)
  match a with
  | ⟨0, _⟩ => show win0_7.index t (0 : Fin 2) * 256 + 1 * p.val = r.val; have := e7.1; omega
  | ⟨1, _⟩ => show win0_7.index t (1 : Fin 2) * 1 + 1 * k.val = k.val; have := e7.2; omega

theorem read_w10 (c : Dev nD) (t : Fin cfg0.N) (p : Fin 256) (k : Fin 2048) (r : Fin 2048) (hr : r.val = t.val * 256 + p.val) :
    iblk0 V c 10 t (ix2 p k) = V c main_arg2 (ix2 r k) := by
  show V c main_arg2 (((cfg0.win 10).blk t).view.emb (ix2 p k)) = V c main_arg2 (ix2 r k)
  obtain ⟨e0, e1, e2, e3, e4, e5, e6, e7, -, -, e10, -, -, -⟩ := band_index t
  refine congrArg (V c main_arg2) (funext fun a => Fin.ext ?_)
  match a with
  | ⟨0, _⟩ => show win0_10.index t (0 : Fin 2) * 256 + 1 * p.val = r.val; have := e10.1; omega
  | ⟨1, _⟩ => show win0_10.index t (1 : Fin 2) * 2048 + 1 * k.val = k.val; have := e10.2; omega

theorem read_w8 (c : Dev nD) (t : Fin cfg0.N) : iblk0 V c 8 t = V c main_v2 := by
  funext y
  show V c main_v2 (((cfg0.win 8).blk t).view.emb y) = V c main_v2 y
  obtain ⟨-, -, -, -, -, -, -, -, e8, e9, -, -, -, -⟩ := band_index t
  refine congrArg (V c main_v2) (funext fun a => Fin.ext ?_)
  match a with
  | ⟨0, _⟩ => show win0_8.index t (0 : Fin 2) * 2048 + 1 * (y 0).val = (y 0).val; have := e8.1; omega
  | ⟨1, _⟩ => show win0_8.index t (1 : Fin 2) * 2048 + 1 * (y 1).val = (y 1).val; have := e8.2; omega

theorem read_w9 (c : Dev nD) (t : Fin cfg0.N) : iblk0 V c 9 t = V c main_v1 := by
  funext y
  show V c main_v1 (((cfg0.win 9).blk t).view.emb y) = V c main_v1 y
  obtain ⟨-, -, -, -, -, -, -, -, e8, e9, -, -, -, -⟩ := band_index t
  refine congrArg (V c main_v1) (funext fun a => Fin.ext ?_)
  match a with
  | ⟨0, _⟩ => show win0_9.index t (0 : Fin 2) * 2048 + 1 * (y 0).val = (y 0).val; have := e9.1; omega
  | ⟨1, _⟩ => show win0_9.index t (1 : Fin 2) * 1024 + 1 * (y 1).val = (y 1).val; have := e9.2; omega

/-! ## A band of the specification -/

/-- The new cell state of the arrays the call finds. -/
abbrev cellArr (c : Dev nD) : Arr 2048 2048 :=
  cell (V c main_v3) (V c main_v4) (V c main_v6) (V c main_arg11) (V c main_arg13) (V c main_arg10)
    (V c main_v2) (V c main_v1) (V c main_arg2)

/-- The new hidden state of the arrays the call finds. -/
abbrev hidArr (c : Dev nD) : Arr 2048 2048 :=
  hid (V c main_v3) (V c main_v4) (V c main_v5) (V c main_v6) (V c main_arg11) (V c main_arg13) (V c main_arg12)
    (V c main_arg10) (V c main_v2) (V c main_v1) (V c main_arg2)

/-- Row p of the cell state computed from point t's blocks is row 256 t + p of the whole cell state. -/
theorem cell_band (c : Dev nD) (t : Fin cfg0.N) (p : Fin 256) (q : Fin 2048) (r : Fin 2048) (hr : r.val = t.val * 256 + p.val) :
    cellAt (iblk0 V c 0 t) (iblk0 V c 1 t) (iblk0 V c 3 t) (iblk0 V c 4 t) (iblk0 V c 5 t) (iblk0 V c 7 t)
      (iblk0 V c 8 t) (iblk0 V c 9 t) (iblk0 V c 10 t) p q = cellArr V c (ix2 r q) := by
  rw [read_w8 V c t, read_w9 V c t]
  exact cellAt_row _ _ _ _ _ _ _ _ _ _ _ _ _ _ _ _ p r q
    (fun k => read_w0 V c t p k r hr) (fun k => read_w1 V c t p k r hr) (fun k => read_w3 V c t p k r hr)
    (read_w4 V c t p 0 r hr) (read_w5 V c t p 0 r hr) (read_w7 V c t p 0 r hr) (read_w10 V c t p q r hr)

/-- Row p of the hidden state computed from point t's blocks is row 256 t + p of the whole hidden state. -/
theorem hid_band (c : Dev nD) (t : Fin cfg0.N) (p : Fin 256) (q : Fin 2048) (r : Fin 2048) (hr : r.val = t.val * 256 + p.val) :
    hidAt (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) p q = hidArr V c (ix2 r q) := by
  rw [read_w8 V c t, read_w9 V c t]
  exact hidAt_row _ _ _ _ _ _ _ _ _ _ _ _ _ _ _ _ _ _ _ _ p r q
    (fun k => read_w0 V c t p k r hr) (fun k => read_w1 V c t p k r hr) (fun k => read_w2 V c t p k r hr)
    (fun k => read_w3 V c t p k r hr)
    (read_w4 V c t p 0 r hr) (read_w5 V c t p 0 r hr) (read_w6 V c t p 0 r hr) (read_w7 V c t p 0 r hr)
    (read_w10 V c t p q r hr)

/-! ## Output window 11: the new cell state -/

/-- What grid point t writes back through window 11 is band t of the new cell state. -/
theorem band11 (c : Dev nD) (t : Fin cfg0.N) :
    (dat0 (F := Ideal) V c).flushed 11 t = ((cfg0.win 11).blk t).view.read (Elt Ideal) (cellArr V c) := by
  show (cfg0.win 11).cut (grid0.coords t) ((dat0 (F := Ideal) V c).after 11 t) = _
  rw [after0_11]
  unfold out0_11
  rw [View.canon_unit_zero zero_offsets]
  simp only [View.ld_unit_zero (S := S2048x2048) zero_offsets, View.ld_unit_zero (S := S2048x1024) zero_offsets,
    View.ld_unit_zero (S := S256x3072) zero_offsets, View.ld_unit_zero (S := S256x1) zero_offsets,
    View.ld_unit_zero (S := S256x2048) zero_offsets]
  funext j
  obtain ⟨p, q, rfl⟩ : ∃ (p : Fin 256) (q : Fin 2048), j = ix2 p q := ⟨j 0, j 1, eq_ix2 j⟩
  have ht : t.val < 8 := lt_of_lt_of_eq t.isLt N_0
  refine (pay1_entry (iblk0 V c 8 t) (iblk0 V c 9 t) (iblk0 V c 0 t) (iblk0 V c 1 t) (iblk0 V c 3 t) (iblk0 V c 4 t) (iblk0 V c 5 t) (iblk0 V c 7 t) (iblk0 V c 10 t) p q).trans ?_
  show _ = cellArr V c (((cfg0.win 11).blk t).view.emb (ix2 p q))
  have hemb : ((cfg0.win 11).blk t).view.emb (ix2 p q) = ix2 (⟨t.val * 256 + p.val, by omega⟩ : Fin 2048) q := by
    obtain ⟨-, -, -, -, -, -, -, -, -, -, -, e11, e12, e13⟩ := band_index t
    refine funext fun a => Fin.ext ?_
    match a with
    | ⟨0, _⟩ => show win0_11.index t (0 : Fin 2) * 256 + 1 * p.val = t.val * 256 + p.val; omega
    | ⟨1, _⟩ => show win0_11.index t (1 : Fin 2) * 2048 + 1 * q.val = q.val; omega
  rw [hemb]
  exact cell_band V c t p q ⟨t.val * 256 + p.val, by omega⟩ rfl

/-- An index of the array is in point t's block of window 11 iff each coordinate is in the block's range. -/
theorem mem_band11 (t : Fin cfg0.N) (i : S2048x2048.Idx) :
    i ∈ ((cfg0.win 11).blk t).view.set ↔ ∀ a : Fin 2, win0_11.index t a * S256x2048.size a ≤ (i a).val ∧ (i a).val < win0_11.index t a * S256x2048.size a + S256x2048.size a := by
  show i ∈ ((View.whole main_v7_0).slice (win0_11.rect t)).set ↔ _
  rw [View.set_slice_whole, Rect.mem_set_unit]
  exact Iff.rfl

/-- The eight bands of window 11 cover the array: row r lies in band r / 256. -/
theorem cover11 (i : S2048x2048.Idx) :
    ∃ t : Fin cfg0.N, (cfg0.win 11).flush t = true ∧ i ∈ ((cfg0.win 11).blk t).view.set := by
  have hi0 : (i 0).val < 2048 := (i 0).isLt
  have hi1 : (i 1).val < 2048 := (i 1).isLt
  have hN : (i 0).val / 256 < cfg0.N := lt_of_lt_of_eq (show (i 0).val / 256 < 8 by omega) N_0.symm
  refine ⟨⟨(i 0).val / 256, hN⟩, flush0_11 _, ?_⟩
  rw [mem_band11]
  obtain ⟨-, -, -, -, -, -, -, -, -, -, -, e11, e12, e13⟩ := band_index ⟨(i 0).val / 256, hN⟩
  intro a
  match a with
  | ⟨0, _⟩ =>
    show win0_11.index ⟨(i 0).val / 256, hN⟩ (0 : Fin 2) * 256 ≤ (i 0).val ∧ (i 0).val < win0_11.index ⟨(i 0).val / 256, hN⟩ (0 : Fin 2) * 256 + 256
    have e : win0_11.index ⟨(i 0).val / 256, hN⟩ (0 : Fin 2) = (i 0).val / 256 := e11.1
    omega
  | ⟨1, _⟩ =>
    show win0_11.index ⟨(i 0).val / 256, hN⟩ (1 : Fin 2) * 2048 ≤ (i 1).val ∧ (i 1).val < win0_11.index ⟨(i 0).val / 256, hN⟩ (1 : Fin 2) * 2048 + 2048
    have e : win0_11.index ⟨(i 0).val / 256, hN⟩ (1 : Fin 2) = 0 := e11.2
    omega

/-! ## Output window 12: the new hidden state -/

/-- What grid point t writes back through window 12 is band t of the new hidden state. -/
theorem band12 (c : Dev nD) (t : Fin cfg0.N) :
    (dat0 (F := Ideal) V c).flushed 12 t = ((cfg0.win 12).blk t).view.read (Elt Ideal) (hidArr V c) := by
  show (cfg0.win 12).cut (grid0.coords t) ((dat0 (F := Ideal) V c).after 12 t) = _
  rw [after0_12]
  unfold out0_12
  rw [View.canon_unit_zero zero_offsets]
  simp only [View.ld_unit_zero (S := S2048x2048) zero_offsets, View.ld_unit_zero (S := S2048x1024) zero_offsets,
    View.ld_unit_zero (S := S256x3072) zero_offsets, View.ld_unit_zero (S := S256x1) zero_offsets,
    View.ld_unit_zero (S := S256x2048) zero_offsets]
  funext j
  obtain ⟨p, q, rfl⟩ : ∃ (p : Fin 256) (q : Fin 2048), j = ix2 p q := ⟨j 0, j 1, eq_ix2 j⟩
  have ht : t.val < 8 := lt_of_lt_of_eq t.isLt N_0
  refine (pay2_entry (iblk0 V c 8 t) (iblk0 V c 9 t) (iblk0 V c 0 t) (iblk0 V c 1 t) (iblk0 V c 2 t) (iblk0 V c 3 t) (iblk0 V c 4 t) (iblk0 V c 5 t) (iblk0 V c 6 t) (iblk0 V c 7 t) (iblk0 V c 10 t) p q).trans ?_
  show _ = hidArr V c (((cfg0.win 12).blk t).view.emb (ix2 p q))
  have hemb : ((cfg0.win 12).blk t).view.emb (ix2 p q) = ix2 (⟨t.val * 256 + p.val, by omega⟩ : Fin 2048) q := by
    obtain ⟨-, -, -, -, -, -, -, -, -, -, -, e11, e12, e13⟩ := band_index t
    refine funext fun a => Fin.ext ?_
    match a with
    | ⟨0, _⟩ => show win0_12.index t (0 : Fin 2) * 256 + 1 * p.val = t.val * 256 + p.val; omega
    | ⟨1, _⟩ => show win0_12.index t (1 : Fin 2) * 2048 + 1 * q.val = q.val; omega
  rw [hemb]
  exact hid_band V c t p q ⟨t.val * 256 + p.val, by omega⟩ rfl

/-- An index of the array is in point t's block of window 12 iff each coordinate is in the block's range. -/
theorem mem_band12 (t : Fin cfg0.N) (i : S2048x2048.Idx) :
    i ∈ ((cfg0.win 12).blk t).view.set ↔ ∀ a : Fin 2, win0_12.index t a * S256x2048.size a ≤ (i a).val ∧ (i a).val < win0_12.index t a * S256x2048.size a + S256x2048.size a := by
  show i ∈ ((View.whole main_v7_1).slice (win0_12.rect t)).set ↔ _
  rw [View.set_slice_whole, Rect.mem_set_unit]
  exact Iff.rfl

/-- The eight bands of window 12 cover the array: row r lies in band r / 256. -/
theorem cover12 (i : S2048x2048.Idx) :
    ∃ t : Fin cfg0.N, (cfg0.win 12).flush t = true ∧ i ∈ ((cfg0.win 12).blk t).view.set := by
  have hi0 : (i 0).val < 2048 := (i 0).isLt
  have hi1 : (i 1).val < 2048 := (i 1).isLt
  have hN : (i 0).val / 256 < cfg0.N := lt_of_lt_of_eq (show (i 0).val / 256 < 8 by omega) N_0.symm
  refine ⟨⟨(i 0).val / 256, hN⟩, flush0_12 _, ?_⟩
  rw [mem_band12]
  obtain ⟨-, -, -, -, -, -, -, -, -, -, -, e11, e12, e13⟩ := band_index ⟨(i 0).val / 256, hN⟩
  intro a
  match a with
  | ⟨0, _⟩ =>
    show win0_12.index ⟨(i 0).val / 256, hN⟩ (0 : Fin 2) * 256 ≤ (i 0).val ∧ (i 0).val < win0_12.index ⟨(i 0).val / 256, hN⟩ (0 : Fin 2) * 256 + 256
    have e : win0_12.index ⟨(i 0).val / 256, hN⟩ (0 : Fin 2) = (i 0).val / 256 := e12.1
    omega
  | ⟨1, _⟩ =>
    show win0_12.index ⟨(i 0).val / 256, hN⟩ (1 : Fin 2) * 2048 ≤ (i 1).val ∧ (i 1).val < win0_12.index ⟨(i 0).val / 256, hN⟩ (1 : Fin 2) * 2048 + 2048
    have e : win0_12.index ⟨(i 0).val / 256, hN⟩ (1 : Fin 2) = 0 := e12.2
    omega

/-! ## Output window 13: the new hidden state in the narrower format -/

/-- What grid point t writes back through window 13 is band t of the new hidden state in the narrower format. -/
theorem band13 (c : Dev nD) (t : Fin cfg0.N) :
    (dat0 (F := Ideal) V c).flushed 13 t = ((cfg0.win 13).blk t).view.read (Elt Ideal) (hidArr V c) := by
  show (cfg0.win 13).cut (grid0.coords t) ((dat0 (F := Ideal) V c).after 13 t) = _
  rw [after0_13]
  unfold out0_13
  rw [View.canon_unit_zero zero_offsets]
  simp only [View.ld_unit_zero (S := S2048x2048) zero_offsets, View.ld_unit_zero (S := S2048x1024) zero_offsets,
    View.ld_unit_zero (S := S256x3072) zero_offsets, View.ld_unit_zero (S := S256x1) zero_offsets,
    View.ld_unit_zero (S := S256x2048) zero_offsets]
  funext j
  obtain ⟨p, q, rfl⟩ : ∃ (p : Fin 256) (q : Fin 2048), j = ix2 p q := ⟨j 0, j 1, eq_ix2 j⟩
  have ht : t.val < 8 := lt_of_lt_of_eq t.isLt N_0
  refine (pay3_entry (iblk0 V c 8 t) (iblk0 V c 9 t) (iblk0 V c 0 t) (iblk0 V c 1 t) (iblk0 V c 2 t) (iblk0 V c 3 t) (iblk0 V c 4 t) (iblk0 V c 5 t) (iblk0 V c 6 t) (iblk0 V c 7 t) (iblk0 V c 10 t) p q).trans ?_
  show _ = hidArr V c (((cfg0.win 13).blk t).view.emb (ix2 p q))
  have hemb : ((cfg0.win 13).blk t).view.emb (ix2 p q) = ix2 (⟨t.val * 256 + p.val, by omega⟩ : Fin 2048) q := by
    obtain ⟨-, -, -, -, -, -, -, -, -, -, -, e11, e12, e13⟩ := band_index t
    refine funext fun a => Fin.ext ?_
    match a with
    | ⟨0, _⟩ => show win0_13.index t (0 : Fin 2) * 256 + 1 * p.val = t.val * 256 + p.val; omega
    | ⟨1, _⟩ => show win0_13.index t (1 : Fin 2) * 2048 + 1 * q.val = q.val; omega
  rw [hemb]
  exact hid_band V c t p q ⟨t.val * 256 + p.val, by omega⟩ rfl

/-- An index of the array is in point t's block of window 13 iff each coordinate is in the block's range. -/
theorem mem_band13 (t : Fin cfg0.N) (i : S2048x2048.Idx) :
    i ∈ ((cfg0.win 13).blk t).view.set ↔ ∀ a : Fin 2, win0_13.index t a * S256x2048.size a ≤ (i a).val ∧ (i a).val < win0_13.index t a * S256x2048.size a + S256x2048.size a := by
  show i ∈ ((View.whole main_v7_2).slice (win0_13.rect t)).set ↔ _
  rw [View.set_slice_whole, Rect.mem_set_unit]
  exact Iff.rfl

/-- The eight bands of window 13 cover the array: row r lies in band r / 256. -/
theorem cover13 (i : S2048x2048.Idx) :
    ∃ t : Fin cfg0.N, (cfg0.win 13).flush t = true ∧ i ∈ ((cfg0.win 13).blk t).view.set := by
  have hi0 : (i 0).val < 2048 := (i 0).isLt
  have hi1 : (i 1).val < 2048 := (i 1).isLt
  have hN : (i 0).val / 256 < cfg0.N := lt_of_lt_of_eq (show (i 0).val / 256 < 8 by omega) N_0.symm
  refine ⟨⟨(i 0).val / 256, hN⟩, flush0_13 _, ?_⟩
  rw [mem_band13]
  obtain ⟨-, -, -, -, -, -, -, -, -, -, -, e11, e12, e13⟩ := band_index ⟨(i 0).val / 256, hN⟩
  intro a
  match a with
  | ⟨0, _⟩ =>
    show win0_13.index ⟨(i 0).val / 256, hN⟩ (0 : Fin 2) * 256 ≤ (i 0).val ∧ (i 0).val < win0_13.index ⟨(i 0).val / 256, hN⟩ (0 : Fin 2) * 256 + 256
    have e : win0_13.index ⟨(i 0).val / 256, hN⟩ (0 : Fin 2) = (i 0).val / 256 := e13.1
    omega
  | ⟨1, _⟩ =>
    show win0_13.index ⟨(i 0).val / 256, hN⟩ (1 : Fin 2) * 2048 ≤ (i 1).val ∧ (i 1).val < win0_13.index ⟨(i 0).val / 256, hN⟩ (1 : Fin 2) * 2048 + 2048
    have e : win0_13.index ⟨(i 0).val / 256, hN⟩ (1 : Fin 2) = 0 := e13.2
    omega

/-! ## The three arrays the call leaves -/

/-- The new cell state's array. -/
theorem final0_11 (c : Dev nD) : (dat0 (F := Ideal) V c).arrAt 11 cfg0.N = cellArr V c :=
  (dat0 (F := Ideal) V c).arrAt_eq_of_cover 11 (cellArr V c) (fun t _ => band11 V c t) cover11

/-- The new hidden state's array. -/
theorem final0_12 (c : Dev nD) : (dat0 (F := Ideal) V c).arrAt 12 cfg0.N = hidArr V c :=
  (dat0 (F := Ideal) V c).arrAt_eq_of_cover 12 (hidArr V c) (fun t _ => band12 V c t) cover12

/-- The new hidden state's array in the narrower format: the same values. -/
theorem final0_13 (c : Dev nD) : (dat0 (F := Ideal) V c).arrAt 13 cfg0.N = hidArr V c :=
  (dat0 (F := Ideal) V c).arrAt_eq_of_cover 13 (hidArr V c) (fun t _ => band13 V c t) cover13

end Cert.KernelIdeal.Region0

end
-- ==== Proof.Region1.lean ====
/-
  The second pallas_call: each grid point multiplies a band of 1280 rows of the projection weights with the whole
  hidden state and adds the band's bias, so the array it leaves is the specification's projection of the arrays the
  call finds.
-/
import proofs.«409515_j82703890252422_3_alg».proof.Proof.Spec
import proofs.«409515_j82703890252422_3_alg».proof.Proof.Gen.KernelIdeal.Frame
import proofs.«409515_j82703890252422_3_alg».proof.Proof.LibPlainDot
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Region1

open Cert.KernelIdeal Cert.KernelIdeal.Gen Cert.Proof.Lstm
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed dimension numbers of the band's product are the plain ones: rows by contraction times contraction by
    columns, no batch axis. -/
theorem dims_plain : dot_S1280x2048_S2048x2048_S1280x2048_1_0_0_1_n_n = DotDims.plain 1280 2048 2048 := rfl

/-- The body's stored value at an entry (p, q) of a band: the sum over k of weights (p, k) times hidden (k, q), plus the
    bias of row p. The narrowing of the weights is the identity on extended reals, the cast to the same shape is the
    identity, and the bias is broadcast along the columns. -/
theorem pay_apply (x0 : Vec Ideal S1280x2048 .f32) (x1 : Vec Ideal S2048x2048 .bf16) (x2 : Vec Ideal S1280x1 .f32)
    (p : Fin 1280) (q : Fin 2048) :
    k1_pay1 (F := Ideal) x0 x1 x2 (ix2 p q) = projAt x0 x2 x1 p q := by
  unfold k1_pay1 projAt
  rw [addf_apply, shapeCast_self, dims_plain]
  rw [PlainDot.matmul_zero_plain_apply]
  have hb : broadcastTo S1280x2048 x2 broadcasts_S1280x1_S1280x2048 (ix2 p q) = x2 (ix2 p 0) :=
    broadcastTo_apply x2 broadcasts_S1280x1_S1280x2048 (ix2 p q) (ix2 p 0) fun a => by
      match a with
      | ⟨0, _⟩ => rfl
      | ⟨1, _⟩ => rfl
  rw [hb]
  rfl

/-- The projection at (r, q) only looks at row r of the weights and bias and at column q of the hidden state. -/
theorem projAt_congr {n n' : Nat} (WA : Arr n 2048) (bA : Arr n 1) (Hn : Arr 2048 2048)
    (WA' : Arr n' 2048) (bA' : Arr n' 1) (Hn' : Arr 2048 2048) (r : Fin n) (r' : Fin n') (q q' : Fin 2048)
    (hW : ∀ k : Fin 2048, WA (ix2 r k) = WA' (ix2 r' k)) (hb : bA (ix2 r 0) = bA' (ix2 r' 0))
    (hH : ∀ k : Fin 2048, Hn (ix2 k q) = Hn' (ix2 k q')) :
    projAt WA bA Hn r q = projAt WA' bA' Hn' r' q' := by
  unfold projAt
  rw [hb]
  congr 1
  exact Finset.sum_congr rfl fun k _ => by rw [hW, hH]

/-- The offsets of a whole-block access are zero on both axes. -/
theorem zero_offsets : (![0, 0] : Fin 2 → Nat) = fun _ => 0 :=
  funext fun a => match a with | ⟨0, _⟩ => rfl | ⟨1, _⟩ => rfl

/-- The block indices at grid point t: the weight band, the bias band and the output band are band t (column block 0);
    the hidden state is its one whole block. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The weight band's block at point t, read at (p, k): the weight array at row 1280 t + p, column k. -/
theorem read_weights (c : Dev nD) (t : Fin cfg1.N) (p : Fin 1280) (k : Fin 2048) (r : Fin 32000)
    (hr : r.val = t.val * 1280 + p.val) :
    iblk1 V c 0 t (ix2 p k) = V c main_arg4 (ix2 r k) := by
  obtain ⟨e00, e01, -⟩ := index_facts t
  show V c main_arg4 (((cfg1.win 0).blk t).view.emb (ix2 p k)) = _
  refine congrArg (V c main_arg4) (funext fun a => Fin.ext ?_)
  match a with
  | ⟨0, _⟩ => show win1_0.index t (0 : Fin 2) * 1280 + 1 * p.val = r.val; omega
  | ⟨1, _⟩ => show win1_0.index t (1 : Fin 2) * 2048 + 1 * k.val = k.val; omega

/-- The hidden state's block at any point is the whole array. -/
theorem read_hidden (c : Dev nD) (t : Fin cfg1.N) (k q : Fin 2048) :
    iblk1 V c 1 t (ix2 k q) = V c main_v7_2 (ix2 k q) := by
  obtain ⟨-, -, e10, e11, -⟩ := index_facts t
  show V c main_v7_2 (((cfg1.win 1).blk t).view.emb (ix2 k q)) = _
  refine congrArg (V c main_v7_2) (funext fun a => Fin.ext ?_)
  match a with
  | ⟨0, _⟩ => show win1_1.index t (0 : Fin 2) * 2048 + 1 * k.val = k.val; omega
  | ⟨1, _⟩ => show win1_1.index t (1 : Fin 2) * 2048 + 1 * q.val = q.val; omega

/-- The bias band's block at point t, read at row p: the bias array at row 1280 t + p. -/
theorem read_bias (c : Dev nD) (t : Fin cfg1.N) (p : Fin 1280) (r : Fin 32000)
    (hr : r.val = t.val * 1280 + p.val) :
    iblk1 V c 2 t (ix2 p 0) = V c main_arg9 (ix2 r 0) := by
  obtain ⟨-, -, -, -, e20, e21, -⟩ := index_facts t
  show V c main_arg9 (((cfg1.win 2).blk t).view.emb (ix2 p 0)) = _
  refine congrArg (V c main_arg9) (funext fun a => Fin.ext ?_)
  match a with
  | ⟨0, _⟩ => show win1_2.index t (0 : Fin 2) * 1280 + 1 * p.val = r.val; omega
  | ⟨1, _⟩ => show win1_2.index t (1 : Fin 2) * 1 + 1 * 0 = 0; omega

/-- What point t writes back is band t of the projection of the arrays the call finds: entry (p, q) of the band is the
    projection at row 1280 t + p and column q, since the projection at a row only looks at that row of the weights and
    bias. -/
theorem flushed_eq (c : Dev nD) (t : Fin cfg1.N) :
    (dat1 (F := Ideal) V c).flushed 3 t
      = ((cfg1.win 3).blk t).view.read (Elt Ideal) (proj (V c main_arg4) (V c main_arg9) (V c main_v7_2)) := by
  show (cfg1.win 3).cut (grid1.coords t) ((dat1 V c).after 3 t) = _
  rw [after1_3]
  unfold out1_3
  rw [View.canon_unit_zero zero_offsets]
  simp only [View.ld_unit_zero (S := S1280x2048) zero_offsets, View.ld_unit_zero (S := S2048x2048) zero_offsets,
    View.ld_unit_zero (S := S1280x1) zero_offsets]
  obtain ⟨-, -, -, -, -, -, e30, e31⟩ := index_facts t
  funext j
  obtain ⟨p, q, rfl⟩ : ∃ (p : Fin 1280) (q : Fin 2048), j = ix2 p q := ⟨j 0, j 1, eq_ix2 j⟩
  show k1_pay1 (iblk1 V c 0 t) (iblk1 V c 1 t) (iblk1 V c 2 t) (ix2 p q)
    = proj (V c main_arg4) (V c main_arg9) (V c main_v7_2) (((cfg1.win 3).blk t).view.emb (ix2 p q))
  refine (pay_apply (iblk1 V c 0 t) (iblk1 V c 1 t) (iblk1 V c 2 t) p q).trans ?_
  have hr : ((((cfg1.win 3).blk t).view.emb (ix2 p q)) 0).val = t.val * 1280 + p.val := by
    show win1_3.index t (0 : Fin 2) * 1280 + 1 * p.val = _; omega
  have hq : ((((cfg1.win 3).blk t).view.emb (ix2 p q)) 1) = q := Fin.ext (by
    show win1_3.index t (1 : Fin 2) * 2048 + 1 * q.val = _; omega)
  refine projAt_congr _ _ _ _ _ _ p _ q _ (fun k => read_weights V c t p k _ hr) (read_bias V c t p _ hr)
    (fun k => (read_hidden V c t k q).trans ?_)
  rw [hq]

/-- An entry of the output array is in point t's block iff each coordinate is in the block's range on its axis. -/
theorem mem_blk (t : Fin cfg1.N) (i : S32000x2048.Idx) :
    i ∈ ((cfg1.win 3).blk t).view.set ↔ ∀ a : Fin 2, win1_3.index t a * S1280x2048.size a ≤ (i a).val
      ∧ (i a).val < win1_3.index t a * S1280x2048.size a + S1280x2048.size a := by
  show i ∈ ((View.whole main_v8).slice (win1_3.rect t)).set ↔ _
  rw [View.set_slice_whole, Rect.mem_set_unit]
  exact Iff.rfl

/-- Every entry of the output array is in some point's block: row r is in band r / 1280, and 25 bands of 1280 rows are
    the 32000 rows. -/
theorem cover (i : S32000x2048.Idx) :
    ∃ t : Fin cfg1.N, (cfg1.win 3).flush t = true ∧ i ∈ ((cfg1.win 3).blk t).view.set := by
  have hi0 : (i 0).val < 32000 := (i 0).isLt
  have hi1 : (i 1).val < 2048 := (i 1).isLt
  have hN : cfg1.N = 25 := N_1
  let t : Fin cfg1.N := ⟨(i 0).val / 1280, by rw [hN]; omega⟩
  obtain ⟨-, -, -, -, -, -, e30, e31⟩ := index_facts t
  have ht : t.val = (i 0).val / 1280 := rfl
  refine ⟨t, flush1_3 t, ?_⟩
  rw [mem_blk]
  intro a
  match a with
  | ⟨0, _⟩ => show win1_3.index t (0 : Fin 2) * 1280 ≤ (i 0).val ∧ (i 0).val < win1_3.index t (0 : Fin 2) * 1280 + 1280; omega
  | ⟨1, _⟩ => show win1_3.index t (1 : Fin 2) * 2048 ≤ (i 1).val ∧ (i 1).val < win1_3.index t (1 : Fin 2) * 2048 + 2048; omega

/-- The array the second call's output window ends holding: the projection of the arrays the call finds. -/
theorem final1_3 (c : Dev nD) :
    (dat1 (F := Ideal) V c).arrAt 3 cfg1.N = proj (V c main_arg4) (V c main_arg9) (V c main_v7_2) :=
  (dat1 V c).arrAt_eq_of_cover 3 _ (fun t _ => flushed_eq V c t) cover

end Cert.KernelIdeal.Region1

end
-- ==== Proof.Assembly.lean ====
/-
  The five claims.  From memories that agree on the arguments the two programs leave the same three arrays: the
  specification's projection, hidden state and cell state of the arguments, over the embeddings the lookup leaves.
  The kernel: its first call leaves the cell and hidden state of the arrays it finds, which are the arguments (a change
  of float format is the identity) and the looked-up embeddings (every index is in range); its second call leaves the
  projection of that hidden state.  The reference: its three results read index by index.  The lookup is one and the
  same gather in the two programs.
-/
import proofs.«409515_j82703890252422_3_alg».proof.Defs
import proofs.«409515_j82703890252422_3_alg».proof.Proof.Spec
import proofs.«409515_j82703890252422_3_alg».proof.Proof.RefValue
import proofs.«409515_j82703890252422_3_alg».proof.Proof.KernelRun
import proofs.«409515_j82703890252422_3_alg».proof.Proof.HostSide
import proofs.«409515_j82703890252422_3_alg».proof.Proof.Region0
import proofs.«409515_j82703890252422_3_alg».proof.Proof.Region1
import proofs.«409515_j82703890252422_3_alg».proof.Proof.Gen.Kernel
import proofs.«409515_j82703890252422_3_alg».proof.Proof.Gen.Kernel.Frame
import proofs.«409515_j82703890252422_3_alg».proof.Proof.Gen.KernelIdeal
import proofs.«409515_j82703890252422_3_alg».proof.Proof.Gen.KernelIdeal.Frame
import proofs.«409515_j82703890252422_3_alg».proof.Proof.Gen.ReferenceIdeal
import proofs.«409515_j82703890252422_3_alg».proof.Proof.Gen.ReferenceIdeal.Run
import proofs.«409515_j82703890252422_3_alg».proof.Proof.Gen.ReferenceIdeal.Read
import proofs.«409515_j82703890252422_3_alg».proof.Proof.Gen.Pre_finite_inputs

set_option maxRecDepth 16384

noncomputable section

namespace Cert.Proof.Assembly

open Idealize.ShloMosaic Idealize.ShloMosaic.TcCoe Idealize.SL.Sem Cert.Proof.Lstm

/-! ## The kernel's three results -/

section Kernel

open Cert.KernelIdeal Cert.KernelIdeal.Gen Cert.KernelIdeal.HostSide

variable (m : (ℓ : Loc nD τ sig) → Buf (Elt Ideal) ℓ) (ρ : Dev nD → PrngReg)

/-- The specification's new cell state of the arguments on one core. -/
abbrev specCell (c : Dev nD) : Arr 2048 2048 :=
  cell (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg5)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg10)) (m ((c.tc : Thread Cert.KernelIdeal.nD Cert.KernelIdeal.τ).loc Cert.KernelIdeal.main_arg1))
    (lookedUp (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg2))

/-- The specification's new hidden state of the arguments on one core. -/
abbrev specHid (c : Dev nD) : Arr 2048 2048 :=
  hid (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg7)) (m ((c.tc : Thread Cert.KernelIdeal.nD Cert.KernelIdeal.τ).loc Cert.KernelIdeal.main_arg5)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg12)) (m ((c.tc : Thread Cert.KernelIdeal.nD Cert.KernelIdeal.τ).loc Cert.KernelIdeal.main_arg10)) (m ((c.tc : Thread Cert.KernelIdeal.nD Cert.KernelIdeal.τ).loc Cert.KernelIdeal.main_arg1))
    (lookedUp (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg2))

/-- The specification's projection of the arguments on one core. -/
abbrev specProj (c : Dev nD) : Arr 32000 2048 :=
  proj (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (specHid m c)

/-- The cell state of the arrays the first call finds is the cell state of the arguments. -/
theorem cellArr_eq (c : Dev nD) (hin : InRange (m ((c.tc : Thread Cert.KernelIdeal.nD Cert.KernelIdeal.τ).loc Cert.KernelIdeal.main_arg0))) :
    Region0.cellArr (V2 m ρ) c = specCell m c := by
  show cell (V2 m ρ c main_v3) (V2 m ρ c main_v4) (V2 m ρ c main_v6) (V2 m ρ c main_arg11) (V2 m ρ c main_arg13)
    (V2 m ρ c main_arg10) (V2 m ρ c main_v2) (V2 m ρ c main_v1) (V2 m ρ c main_arg2) = _
  rw [V2_main_v3, V2_main_v4, V2_main_v6, V2_main_arg11, V2_main_arg13, V2_main_arg10, V2_main_v2,
    V2_main_v1 m ρ c hin, V2_main_arg2]

/-- The hidden state of the arrays the first call finds is the hidden state of the arguments. -/
theorem hidArr_eq (c : Dev nD) (hin : InRange (m ((c.tc : Thread Cert.KernelIdeal.nD Cert.KernelIdeal.τ).loc Cert.KernelIdeal.main_arg0))) :
    Region0.hidArr (V2 m ρ) c = specHid m c := by
  show hid (V2 m ρ c main_v3) (V2 m ρ c main_v4) (V2 m ρ c main_v5) (V2 m ρ c main_v6) (V2 m ρ c main_arg11)
    (V2 m ρ c main_arg13) (V2 m ρ c main_arg12) (V2 m ρ c main_arg10) (V2 m ρ c main_v2) (V2 m ρ c main_v1)
    (V2 m ρ c main_arg2) = _
  rw [V2_main_v3, V2_main_v4, V2_main_v5, V2_main_v6, V2_main_arg11, V2_main_arg13, V2_main_arg12, V2_main_arg10,
    V2_main_v2, V2_main_v1 m ρ c hin, V2_main_arg2]

variable [hP : Cert.Pre_finite_inputs.Facts]

/-- The kernel's third result is the cell state of the arguments. -/
theorem kernel_cell (hpre : Cert.Pre_KernelIdeal m) (c : Dev nD) :
    W4 m ρ c (Proc.devRef .tc main_v7_0) = specCell m c :=
  (W4_of_ne m ρ c main_v7_0 (by decide)).trans ((W3_arr m ρ c 11).trans
    ((Region0.final0_11 (V2 m ρ) c).trans (cellArr_eq m ρ c (inRange_of_pre m hpre c))))

/-- The kernel's second result is the hidden state of the arguments. -/
theorem kernel_hid (hpre : Cert.Pre_KernelIdeal m) (c : Dev nD) :
    W4 m ρ c (Proc.devRef .tc main_v7_1) = specHid m c :=
  (W4_of_ne m ρ c main_v7_1 (by decide)).trans ((W3_arr m ρ c 12).trans
    ((Region0.final0_12 (V2 m ρ) c).trans (hidArr_eq m ρ c (inRange_of_pre m hpre c))))

/-- The kernel's first result is the projection of the hidden state of the arguments. -/
theorem kernel_proj (hpre : Cert.Pre_KernelIdeal m) (c : Dev nD) :
    W4 m ρ c (Proc.devRef .tc main_v8) = specProj m c := by
  have h : V3 m ρ c main_v7_2 = specHid m c :=
    (W3_arr m ρ c 13).trans ((Region0.final0_13 (V2 m ρ) c).trans (hidArr_eq m ρ c (inRange_of_pre m hpre c)))
  refine (W4_arr m ρ c 3).trans ((Region1.final1_3 (V3 m ρ) c).trans ?_)
  rw [V3_main_arg4, V3_main_arg9, h]

end Kernel

/-! ## The reference's three results -/

section Reference

open Cert.ReferenceIdeal Cert.ReferenceIdeal.Read

variable (x0 : (⟨S2048, .i32⟩ : BufTy).Contents (Elt Ideal))
  (x1 x2 : (⟨S2048x2048, .f32⟩ : BufTy).Contents (Elt Ideal))
  (x3 : (⟨S32000x1024, .f32⟩ : BufTy).Contents (Elt Ideal))
  (x4 : (⟨S32000x2048, .f32⟩ : BufTy).Contents (Elt Ideal))
  (x5 x6 x7 x8 : (⟨S2048x3072, .f32⟩ : BufTy).Contents (Elt Ideal))
  (x9 : (⟨S32000x1, .f32⟩ : BufTy).Contents (Elt Ideal))
  (x10 x11 x12 x13 : (⟨S2048x1, .f32⟩ : BufTy).Contents (Elt Ideal))

/-- The two programs look the embeddings up by one and the same gather. -/
theorem lookup_eq : val_main_v6 (F := Ideal) x0 x3 = Cert.KernelIdeal.HostSide.lookedUp x0 x3 :=
  rfl

/-- The reference's cell state, over the kernel's name for the looked-up embeddings. -/
theorem ref_cell' :
    val_main_v42 (F := Ideal) x0 x1 x2 x3 x5 x6 x8 x10 x11 x13
      = cell x6 x8 x5 x11 x13 x10 x1 (Cert.KernelIdeal.HostSide.lookedUp x0 x3) x2 := by
  rw [RefValue.ref_cell, lookup_eq]

/-- The reference's hidden state, over the kernel's name for the looked-up embeddings. -/
theorem ref_hid' :
    val_main_v44 (F := Ideal) x0 x1 x2 x3 x5 x6 x7 x8 x10 x11 x12 x13
      = hid x6 x8 x7 x5 x11 x13 x12 x10 x1 (Cert.KernelIdeal.HostSide.lookedUp x0 x3) x2 := by
  rw [RefValue.ref_hid, lookup_eq]

/-- The reference's projection, over the kernel's name for the looked-up embeddings. -/
theorem ref_proj' :
    val_main_v47 (F := Ideal) x0 x1 x2 x3 x4 x5 x6 x7 x8 x9 x10 x11 x12 x13
      = proj x4 x9 (hid x6 x8 x7 x5 x11 x13 x12 x10 x1 (Cert.KernelIdeal.HostSide.lookedUp x0 x3) x2) := by
  rw [RefValue.ref_proj, lookup_eq]

end Reference

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end at the specification's projection, hidden state and cell state of the arguments. -/
theorem algebraic : Cert.algebraic_KernelIdeal_ReferenceIdeal := by
  intro m ρ m' ρ' hpre hagree
  refine ⟨fun c => specProj m c, fun c => specHid m c, fun c => specCell m c, ?_, ?_⟩
  · refine (θ_run Cert.KernelIdeal.defs _ _).mono (fun _ h c => ?_) (Cert.KernelIdeal.Named.run_named (F := Ideal) m ρ)
    obtain ⟨h0, h1, h2, hargs⟩ := h c
    exact ⟨h0.trans (kernel_proj m ρ hpre c), h1.trans (kernel_hid m ρ hpre c), h2.trans (kernel_cell m ρ hpre c), hargs⟩
  · refine (θ_run Cert.ReferenceIdeal.defs _ _).mono (fun _ h c => ?_) (Cert.ReferenceIdeal.Value.run (F := Ideal) m' ρ')
    obtain ⟨h0, h1, h2, hargs⟩ := h c
    obtain ⟨e0, e1, e2, e3, e4, e5, e6, e7, e8, e9, e10, e11, e12, e13⟩ := hagree c
    refine ⟨h0.trans ?_, h1.trans ?_, h2.trans ?_, hargs⟩
    · rw [Cert.ReferenceIdeal.Read.val_main_v47_eq, e0, e1, e2, e3, e4, e5, e6, e7, e8, e9, e10, e11, e12, e13]
      exact ref_proj' _ _ _ _ _ _ _ _ _ _ _ _ _ _
    · rw [Cert.ReferenceIdeal.Read.val_main_v44_eq, e0, e1, e2, e3, e5, e6, e7, e8, e10, e11, e12, e13]
      exact ref_hid' _ _ _ _ _ _ _ _ _ _ _ _
    · refine (Cert.ReferenceIdeal.Read.val_main_v42_eq (F := Ideal) _ _ _ _ _ _ _ _ _ _).trans ?_
      rw [e0, e1, e2, e3, e5, e6, e8, e10, e11, e13]
      exact ref_cell' _ _ _ _ _ _ _ _ _ _

end Cert.Proof.Assembly

end
-- ==== Proof.lean ====
/-
  One step of an LSTM cell — four gates from the previous hidden state and a looked-up embedding, the new cell and
  hidden state, and the projection of the hidden state onto the vocabulary — computed by two pallas_calls, against its
  jnp reference: the five claims.

  The kernel's program looks the embeddings up with a range mask (an index outside the table would select a fill
  value), converts the weights and the hidden state to a narrower float format (the identity at the exact values),
  and runs two calls: the first computes, band of 256 rows by band, the gates as two matrix products each (the weight
  band's hidden columns with the hidden state, its embedding columns with the transposed embeddings), the cell state
  f * C_prev + i * tanh(g) and the hidden state o * tanh(cell); the second, band of 1280 rows by band, W_A * hidden + b_A.
  The reference stacks the hidden state on the transposed embeddings and takes one product per gate over the joined
  axis; a finite sum over the joined axis splits into the two partial sums by associativity alone, the logistic
  function is spelt 1 / (1 + exp (-x)) on one side and as one operation on the other, which denote the same function
  of an extended real, and with every index inside the table (the precondition's last two conjuncts) the range mask
  is set everywhere.  So the three results agree entry by entry on all finite — indeed all extended-real — inputs.

  The frames of the two kernel programs are the generated ones; the reference's frame is its generated run with the
  results dropped; the idealization rewrote no operation, so there is nothing to preserve.
-/
import proofs.«409515_j82703890252422_3_alg».proof.Defs
import proofs.«409515_j82703890252422_3_alg».proof.Proof.Gen.Kernel
import proofs.«409515_j82703890252422_3_alg».proof.Proof.Gen.Kernel.Skeleton
import proofs.«409515_j82703890252422_3_alg».proof.Proof.Gen.Kernel.Launch
import proofs.«409515_j82703890252422_3_alg».proof.Proof.Gen.Kernel.Points
import proofs.«409515_j82703890252422_3_alg».proof.Proof.Gen.Kernel.Frame
import proofs.«409515_j82703890252422_3_alg».proof.Proof.Gen.KernelIdeal
import proofs.«409515_j82703890252422_3_alg».proof.Proof.Gen.KernelIdeal.Skeleton
import proofs.«409515_j82703890252422_3_alg».proof.Proof.Gen.KernelIdeal.Launch
import proofs.«409515_j82703890252422_3_alg».proof.Proof.Gen.KernelIdeal.Points
import proofs.«409515_j82703890252422_3_alg».proof.Proof.Gen.KernelIdeal.Frame
import proofs.«409515_j82703890252422_3_alg».proof.Proof.Gen.ReferenceIdeal
import proofs.«409515_j82703890252422_3_alg».proof.Proof.Gen.ReferenceIdeal.Run
import proofs.«409515_j82703890252422_3_alg».proof.Proof.Gen.ReferenceIdeal.Read
import proofs.«409515_j82703890252422_3_alg».proof.Proof.Gen.Pre_finite_inputs
import proofs.«409515_j82703890252422_3_alg».proof.Proof.Assembly
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Assembly.frame_k, Assembly.frame_ki, Assembly.frame_ri, Assembly.preserves, Assembly.algebraic⟩

end Cert.Proof

end
